-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S320000x32 : Shape := ⟨2, ![320000, 32]⟩
abbrev S320000 : Shape := ⟨1, ![320000]⟩
abbrev S128x512 : Shape := ⟨2, ![128, 512]⟩
abbrev S512 : Shape := ⟨1, ![512]⟩
abbrev S32x512 : Shape := ⟨2, ![32, 512]⟩
abbrev S3x512 : Shape := ⟨2, ![3, 512]⟩
abbrev S512x512 : Shape := ⟨2, ![512, 512]⟩
abbrev S512x128 : Shape := ⟨2, ![512, 128]⟩
abbrev S128 : Shape := ⟨1, ![128]⟩
abbrev S512x32 : Shape := ⟨2, ![512, 32]⟩
abbrev S32 : Shape := ⟨1, ![32]⟩
abbrev S512x3 : Shape := ⟨2, ![512, 3]⟩
abbrev S3 : Shape := ⟨1, ![3]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S320000x32 : S_.BroadcastsInDim S320000x32 (![] : Fin 0 → Fin S320000x32.rank)
  reducesTo_S320000x32_S_d0_1 : S320000x32.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S32x512 : S_.BroadcastsInDim S32x512 (![] : Fin 0 → Fin S32x512.rank)
  reducesTo_S32x512_S_d0_1 : S32x512.ReducesTo [0, 1] S_
  bcast_S_S3x512 : S_.BroadcastsInDim S3x512 (![] : Fin 0 → Fin S3x512.rank)
  reducesTo_S3x512_S_d0_1 : S3x512.ReducesTo [0, 1] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S512x3 : S_.BroadcastsInDim S512x3 (![] : Fin 0 → Fin S512x3.rank)
  reducesTo_S512x3_S_d0_1 : S512x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg16 : FVec F S32 .f32) (main_arg17 : FVec F S512x3 .f32) (main_arg18 : FVec F S3 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S512x3 .f32 := Host.absf main_arg17
  let main_cst_28 : FVec F S_ .f32 := constant S_ .f32 0x7F800000#32
  let main_v75 : FVec F S512x3 .f32 := broadcastInDim S512x3 ![] bcast_S_S512x3 main_cst_28
  let main_v76 : IVec S512x3 1 := cmpf .olt main_v74 main_v75
  let main_c_29 : IVec S_ 1 := constantI S_ 1 1#1
  let main_v77 : IVec S_ 1 := (fun x v => Host.reduce IntOp.andi x v reducesTo_S512x3_S_d0_1 h_S_) main_v76 main_c_29
  let main_v78 : IVec S_ 1 := andi main_v73 main_v77
  let main_v79 : FVec F S3 .f32 := Host.absf main_arg18
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg13 : FVec F S512x128 .f32) (main_arg14 : FVec F S128 .f32) (main_arg15 : FVec F S512x32 .f32) (main_arg16 : FVec F S32 .f32) (main_arg17 : FVec F S512x3 .f32) (main_arg18 : FVec F S3 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg13
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S512x32 .f32 := Host.absf main_arg15
  let main_cst_24 : FVec F S_ .f32 := constant S_ .f32 0x7F800000#32
  let main_v65 : FVec F S512x32 .f32 := broadcastInDim S512x32 ![] bcast_S_S512x32 main_cst_24
  let main_v66 : IVec S512x32 1 := cmpf .olt main_v64 main_v65
  let main_c_25 : IVec S_ 1 := constantI S_ 1 1#1
  let main_v67 : IVec S_ 1 := (fun x v => Host.reduce IntOp.andi x v reducesTo_S512x32_S_d0_1 h_S_) main_v66 main_c_25
  fn_part4 (F := F) main_arg16 main_arg17 main_arg18 main_v63 main_v67

def fn_part2 {F : FTy → Type} [FloatOps F] (main_arg9 : FVec F S3x512 .f32) (main_arg10 : FVec F S512 .f32) (main_arg11 : FVec F S512x512 .f32) (main_arg12 : FVec F S512 .f32) (main_arg13 : FVec F S512x128 .f32) (main_arg14 : FVec F S128 .f32) (main_arg15 : FVec F S512x32 .f32) (main_arg16 : FVec F S32 .f32) (main_arg17 : FVec F S512x3 .f32) (main_arg18 : FVec F S3 .f32) (main_v33 : IVec S_ 1) : IVec S_ 1 :=
  let main_v34 : FVec F S3x512 .f32 := Host.absf main_arg9
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg11
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_arg15 main_arg16 main_arg17 main_arg18 main_v48 main_v49 main_v50

def fn_part1 {F : FTy → Type} [FloatOps F] (main_arg6 : FVec F S512 .f32) (main_arg7 : FVec F S32x512 .f32) (main_arg8 : FVec F S512 .f32) (main_arg9 : FVec F S3x512 .f32) (main_arg10 : FVec F S512 .f32) (main_arg11 : FVec F S512x512 .f32) (main_arg12 : FVec F S512 .f32) (main_arg13 : FVec F S512x128 .f32) (main_arg14 : FVec F S128 .f32) (main_arg15 : FVec F S512x32 .f32) (main_arg16 : FVec F S32 .f32) (main_arg17 : FVec F S512x3 .f32) (main_arg18 : FVec F S3 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S32x512 .f32 := Host.absf main_arg7
  let main_cst_8 : FVec F S_ .f32 := constant S_ .f32 0x7F800000#32
  let main_v25 : FVec F S32x512 .f32 := broadcastInDim S32x512 ![] bcast_S_S32x512 main_cst_8
  let main_v26 : IVec S32x512 1 := cmpf .olt main_v24 main_v25
  let main_c_9 : IVec S_ 1 := constantI S_ 1 1#1
  let main_v27 : IVec S_ 1 := (fun x v => Host.reduce IntOp.andi x v reducesTo_S32x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S20000x128 .f32) (main_arg1 : FVec F S20000x3 .f32) (main_arg2 : FVec F S320000x32 .f32) (main_arg3 : IVec S320000 32) (main_arg4 : IVec S320000 32) (main_arg5 : FVec F S128x512 .f32) (main_arg6 : FVec F S512 .f32) (main_arg7 : FVec F S32x512 .f32) (main_arg8 : FVec F S512 .f32) (main_arg9 : FVec F S3x512 .f32) (main_arg10 : FVec F S512 .f32) (main_arg11 : FVec F S512x512 .f32) (main_arg12 : FVec F S512 .f32) (main_arg13 : FVec F S512x128 .f32) (main_arg14 : FVec F S128 .f32) (main_arg15 : FVec F S512x32 .f32) (main_arg16 : FVec F S32 .f32) (main_arg17 : FVec F S512x3 .f32) (main_arg18 : FVec F S3 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S320000x32 .f32 := Host.absf main_arg2
  let main_cst_2 : FVec F S_ .f32 := constant S_ .f32 0x7F800000#32
  let main_v10 : FVec F S320000x32 .f32 := broadcastInDim S320000x32 ![] bcast_S_S320000x32 main_cst_2
  let main_v11 : IVec S320000x32 1 := cmpf .olt main_v9 main_v10
  let main_c_3 : IVec S_ 1 := constantI S_ 1 1#1
  let main_v12 : IVec S_ 1 := (fun x v => Host.reduce IntOp.andi x v reducesTo_S320000x32_S_d0_1 h_S_) main_v11 main_c_3
  let main_v13 : IVec S_ 1 := andi main_v8 main_v12
  let main_v14 : FVec F S128x512 .f32 := Host.absf main_arg5
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S20000x128 : Shape := ⟨2, ![20000, 128]⟩
abbrev S20000x3 : Shape := ⟨2, ![20000, 3]⟩
abbrev S320000x32 : Shape := ⟨2, ![320000, 32]⟩
abbrev S320000 : Shape := ⟨1, ![320000]⟩
abbrev S128x512 : Shape := ⟨2, ![128, 512]⟩
abbrev S512 : Shape := ⟨1, ![512]⟩
abbrev S32x512 : Shape := ⟨2, ![32, 512]⟩
abbrev S3x512 : Shape := ⟨2, ![3, 512]⟩
abbrev S512x512 : Shape := ⟨2, ![512, 512]⟩
abbrev S512x128 : Shape := ⟨2, ![512, 128]⟩
abbrev S128 : Shape := ⟨1, ![128]⟩
abbrev S512x32 : Shape := ⟨2, ![512, 32]⟩
abbrev S32 : Shape := ⟨1, ![32]⟩
abbrev S512x3 : Shape := ⟨2, ![512, 3]⟩
abbrev S3 : Shape := ⟨1, ![3]⟩
abbrev S1x512 : Shape := ⟨2, ![1, 512]⟩
abbrev S20000x512 : Shape := ⟨2, ![20000, 512]⟩
abbrev S2000x128 : Shape := ⟨2, ![2000, 128]⟩
abbrev S2000x512 : Shape := ⟨2, ![2000, 512]⟩
abbrev S320000x512 : Shape := ⟨2, ![320000, 512]⟩
abbrev S4000x32 : Shape := ⟨2, ![4000, 32]⟩
abbrev S4000x512 : Shape := ⟨2, ![4000, 512]⟩
abbrev S2000x3 : Shape := ⟨2, ![2000, 3]⟩
abbrev S_ : Shape := ⟨0, ![]⟩
abbrev S320000x1 : Shape := ⟨2, ![320000, 1]⟩
abbrev S1x128 : Shape := ⟨2, ![1, 128]⟩
abbrev S1x32 : Shape := ⟨2, ![1, 32]⟩
abbrev S1x3 : Shape := ⟨2, ![1, 3]⟩

abbrev nBuf : Space → Nat
  | .hbm => 67
  | .vmem => 44
  | .smem => 0
  | _ => 0

abbrev bufTy : (tb : Table) → Fin (tcTables nBuf tb) → BufTy
  | .hbm, ⟨0, _⟩ => ⟨S20000x128, .f32⟩
  | .hbm, ⟨1, _⟩ => ⟨S20000x3, .f32⟩
  | .hbm, ⟨2, _⟩ => ⟨S320000x32, .f32⟩
  | .hbm, ⟨3, _⟩ => ⟨S320000, .i32⟩
  | .hbm, ⟨4, _⟩ => ⟨S320000, .i32⟩
  | .hbm, ⟨5, _⟩ => ⟨S128x512, .f32⟩
  | .hbm, ⟨6, _⟩ => ⟨S512, .f32⟩
  | .hbm, ⟨7, _⟩ => ⟨S32x512, .f32⟩
  | .hbm, ⟨8, _⟩ => ⟨S512, .f32⟩
  | .hbm, ⟨9, _⟩ => ⟨S3x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x128, .f32⟩
  | .hbm, ⟨14, _⟩ => ⟨S128, .f32⟩
  | .hbm, ⟨15, _⟩ => ⟨S512x32, .f32⟩
  | .hbm, ⟨16, _⟩ => ⟨S32, .f32⟩
  | .hbm, ⟨17, _⟩ => ⟨S512x3, .f32⟩
  | .hbm, ⟨18, _⟩ => ⟨S3, .f32⟩
  | .hbm, ⟨19, _⟩ => ⟨S1x512, .f32⟩
  | .hbm, ⟨20, _⟩ => ⟨S20000x512, .f32⟩
  | .hbm, ⟨21, _⟩ => ⟨S1x512, .f32⟩
  | .hbm, ⟨22, _⟩ => ⟨S320000x512, .f32⟩
  | .hbm, ⟨23, _⟩ => ⟨S1x512, .f32⟩
  | .hbm, ⟨24, _⟩ => ⟨S20000x512, .f32⟩
  | .hbm, ⟨25, _⟩ => ⟨S_, .i32⟩
  | .hbm, ⟨26, _⟩ => ⟨S320000, .i32⟩
  | .hbm, ⟨27, _⟩ => ⟨S320000, .i1⟩
  | .hbm, ⟨28, _⟩ => ⟨S_, .i32⟩
  | .hbm, ⟨29, _⟩ => ⟨S320000, .i32⟩
  | .hbm, ⟨30, _⟩ => ⟨S320000, .i32⟩
  | .hbm, ⟨31, _⟩ => ⟨S320000, .i32⟩
  | .hbm, ⟨32, _⟩ => ⟨S320000x1, .i32⟩
  | .hbm, ⟨33, _⟩ => ⟨S320000x512, .f32⟩
  | .hbm, ⟨34, _⟩ => ⟨S_, .i32⟩
  | .hbm, ⟨35, _⟩ => ⟨S320000, .i32⟩
  | .hbm, ⟨36, _⟩ => ⟨S320000, .i1⟩
  | .hbm, ⟨37, _⟩ => ⟨S_, .i32⟩
  | .hbm, ⟨38, _⟩ => ⟨S320000, .i32⟩
  | .hbm, ⟨39, _⟩ => ⟨S320000, .i32⟩
  | .hbm, ⟨40, _⟩ => ⟨S320000, .i32⟩
  | .hbm, ⟨41, _⟩ => ⟨S320000x1, .i32⟩
  | .hbm, ⟨42, _⟩ => ⟨S320000x512, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x512, .f32⟩
  | .hbm, ⟨52, _⟩ => ⟨S320000x512, .f32⟩
  | .hbm, ⟨53, _⟩ => ⟨S320000x512, .f32⟩
  | .hbm, ⟨54, _⟩ => ⟨S320000x512, .f32⟩
  | .hbm, ⟨55, _⟩ => ⟨S320000x512, .f32⟩
  | .hbm, ⟨56, _⟩ => ⟨S_, .f32⟩
  | .hbm, ⟨57, _⟩ => ⟨S20000x512, .f32⟩
  | .hbm, ⟨58, _⟩ => ⟨S320000x1, .i32⟩
  | .hbm, ⟨59, _⟩ => ⟨S20000x512, .f32⟩
  | .hbm, ⟨60, _⟩ => ⟨S1x512, .f32⟩
  | .hbm, ⟨61, _⟩ => ⟨S1x128, .f32⟩
  | .hbm, ⟨62, _⟩ => ⟨S20000x128, .f32⟩
  | .hbm, ⟨63, _⟩ => ⟨S1x32, .f32⟩
  | .hbm, ⟨64, _⟩ => ⟨S320000x32, .f32⟩
  | .hbm, ⟨65, _⟩ => ⟨S1x3, .f32⟩
  | .hbm, ⟨66, _⟩ => ⟨S20000x3, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S4000x32, .f32⟩
  | .local _ .vmem, ⟨7, _⟩ => ⟨S4000x32, .f32⟩
  | .local _ .vmem, ⟨8, _⟩ => ⟨S32x512, .f32⟩
  | .local _ .vmem, ⟨9, _⟩ => ⟨S1x512, .f32⟩
  | .local _ .vmem, ⟨10, _⟩ => ⟨S4000x512, .f32⟩
  | .local _ .vmem, ⟨11, _⟩ => ⟨S4000x512, .f32⟩
  | .local _ .vmem, ⟨12, _⟩ => ⟨S2000x3, .f32⟩
  | .local _ .vmem, ⟨13, _⟩ => ⟨S2000x3, .f32⟩
  | .local _ .vmem, ⟨14, _⟩ => ⟨S3x512, .f32⟩
  | .local _ .vmem, ⟨15, _⟩ => ⟨S1x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S512x512, .f32⟩
  | .local _ .vmem, ⟨21, _⟩ => ⟨S1x512, .f32⟩
  | .local _ .vmem, ⟨22, _⟩ => ⟨S512x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S4000x512, .f32⟩
  | .local _ .vmem, ⟨29, _⟩ => ⟨S4000x512, .f32⟩
  | .local _ .vmem, ⟨30, _⟩ => ⟨S512x32, .f32⟩
  | .local _ .vmem, ⟨31, _⟩ => ⟨S1x32, .f32⟩
  | .local _ .vmem, ⟨32, _⟩ => ⟨S4000x32, .f32⟩
  | .local _ .vmem, ⟨33, _⟩ => ⟨S4000x32, .f32⟩
  | .local _ .vmem, ⟨34, _⟩ => ⟨S4000x32, .f32⟩
  | .local _ .vmem, ⟨35, _⟩ => ⟨S4000x32, .f32⟩
  | .local _ .vmem, ⟨36, _⟩ => ⟨S2000x512, .f32⟩
  | .local _ .vmem, ⟨37, _⟩ => ⟨S2000x512, .f32⟩
  | .local _ .vmem, ⟨38, _⟩ => ⟨S512x3, .f32⟩
  | .local _ .vmem, ⟨39, _⟩ => ⟨S1x3, .f32⟩
  | .local _ .vmem, ⟨40, _⟩ => ⟨S2000x3, .f32⟩
  | .local _ .vmem, ⟨41, _⟩ => ⟨S2000x3, .f32⟩
  | .local _ .vmem, ⟨42, _⟩ => ⟨S2000x3, .f32⟩
  | .local _ .vmem, ⟨43, _⟩ => ⟨S2000x3, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_1 : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc5_stg4_0 : Ref sig .tc := ⟨.vmem, 42, rfl⟩
abbrev cc5_stg4_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc5_sem4_0 : DmaSem sig := 42
abbrev cc5_sem4_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S3x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x3 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x3 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x3 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x3 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  inb_S4000x32_S4000x32_0_0 : ∀ a, (![0, 0] : Fin 2 → Nat) a + S4000x32.size a ≤ S4000x32.size a
  h_S4000x32 : 0 < S4000x32.numel
  inb_S32x512_S32x512_0_0 : ∀ a, (![0, 0] : Fin 2 → Nat) a + S32x512.size a ≤ S32x512.size a
  h_S32x512 : 0 < S32x512.numel
  broadcasts_S1x512_S4000x512 : S1x512.Broadcasts S4000x512
  inb_S4000x512_S4000x512_0_0 : ∀ a, (![0, 0] : Fin 2 → Nat) a + S4000x512.size a ≤ S4000x512.size a
  h_S4000x512 : 0 < S4000x512.numel
  inb_S2000x3_S2000x3_0_0 : ∀ a, (![0, 0] : Fin 2 → Nat) a + S2000x3.size a ≤ S2000x3.size a
  h_S2000x3 : 0 < S2000x3.numel
  inb_S3x512_S3x512_0_0 : ∀ a, (![0, 0] : Fin 2 → Nat) a + S3x512.size a ≤ S3x512.size a
  h_S3x512 : 0 < S3x512.numel
  bcast_S_S320000 : S_.BroadcastsInDim S320000 (![] : Fin 0 → Fin S320000.rank)
  bcast_S320000_S320000x1_0 : S320000.BroadcastsInDim S320000x1 (![0] : Fin 1 → Fin S320000x1.rank)
  bcast_S_S20000x512 : S_.BroadcastsInDim S20000x512 (![] : Fin 0 → Fin S20000x512.rank)
  shapeCasts_S128_S1x128 : S128.ShapeCasts S1x128
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S32_S1x32 : S32.ShapeCasts S1x32
  shapeCasts_S4000x512_S4000x512 : S4000x512.ShapeCasts S4000x512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  shapeCasts_S3_S1x3 : S3.ShapeCasts S1x3
  inb_S512x3_S512x3_0_0 : ∀ a, (![0, 0] : Fin 2 → Nat) a + S512x3.size a ≤ S512x3.size a
  h_S512x3 : 0 < S512x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  dot_S2000x128_S128x512_S2000x512_1_0_0_1_n_n_wf : DotDims.WF S2000x128 S128x512 S2000x512 [1] [0] [0] [1] [] []
  dot_S4000x32_S32x512_S4000x512_1_0_0_1_n_n_wf : DotDims.WF S4000x32 S32x512 S4000x512 [1] [0] [0] [1] [] []
  dot_S2000x3_S3x512_S2000x512_1_0_0_1_n_n_wf : DotDims.WF S2000x3 S3x512 S2000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  dot_S4000x512_S512x32_S4000x32_1_0_0_1_n_n_wf : DotDims.WF S4000x512 S512x32 S4000x32 [1] [0] [0] [1] [] []
  dot_S2000x512_S512x3_S2000x3_1_0_0_1_n_n_wf : DotDims.WF S2000x512 S512x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x512.size a
  hwx0_3 : ∀ i : grid0.Coords, EltTy.bits .f32 = 32 ∨ (Rect.block (s := S20000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x32.size a ≤ S320000x32.size a
  hwx1_0 : ∀ i : grid1.Coords, EltTy.bits .f32 = 32 ∨ (Rect.block (s := S320000x32) S4000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x512.size a ≤ S320000x512.size a
  hwx1_3 : ∀ i : grid1.Coords, EltTy.bits .f32 = 32 ∨ (Rect.block (s := S320000x512) S4000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x3.size a ≤ S20000x3.size a
  hwx2_0 : ∀ i : grid2.Coords, EltTy.bits .f32 = 32 ∨ (Rect.block (s := S20000x3) S2000x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S3x512.size a ≤ S3x512.size a
  hwx2_1 : ∀ i : grid2.Coords, EltTy.bits .f32 = 32 ∨ (Rect.block (s := S3x512) S3x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S20000x512.size a
  hwx2_3 : ∀ i : grid2.Coords, EltTy.bits .f32 = 32 ∨ (Rect.block (s := S20000x512) S2000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S20000x512.size a
  hwx3_0 : ∀ i : grid3.Coords, EltTy.bits .f32 = 32 ∨ (Rect.block (s := S20000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x128.size a ≤ S512x128.size a
  hwx3_3 : ∀ i : grid3.Coords, EltTy.bits .f32 = 32 ∨ (Rect.block (s := S512x128) S512x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S20000x128.size a
  hwx3_5 : ∀ i : grid3.Coords, EltTy.bits .f32 = 32 ∨ (Rect.block (s := S20000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S20000x128.size a
  hwx3_6 : ∀ i : grid3.Coords, EltTy.bits .f32 = 32 ∨ (Rect.block (s := S20000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x512.size a ≤ S320000x512.size a
  hwx4_0 : ∀ i : grid4.Coords, EltTy.bits .f32 = 32 ∨ (Rect.block (s := S320000x512) S4000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x32.size a ≤ S512x32.size a
  hwx4_1 : ∀ i : grid4.Coords, EltTy.bits .f32 = 32 ∨ (Rect.block (s := S512x32) S512x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x32.size a ≤ S320000x32.size a
  hwx4_3 : ∀ i : grid4.Coords, EltTy.bits .f32 = 32 ∨ (Rect.block (s := S320000x32) S4000x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x32.size a ≤ S320000x32.size a
  hwx4_4 : ∀ i : grid4.Coords, EltTy.bits .f32 = 32 ∨ (Rect.block (s := S320000x32) S4000x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S20000x512.size a
  hwx5_0 : ∀ i : grid5.Coords, EltTy.bits .f32 = 32 ∨ (Rect.block (s := S20000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x3.size a ≤ S512x3.size a
  hwx5_1 : ∀ i : grid5.Coords, EltTy.bits .f32 = 32 ∨ (Rect.block (s := S512x3) S512x3.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x3.size a ≤ S1x3.size a
  hwx5_2 : ∀ i : grid5.Coords, EltTy.bits .f32 = 32 ∨ (Rect.block (s := S1x3) S1x3.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x3.size a ≤ S20000x3.size a
  hwx5_3 : ∀ i : grid5.Coords, EltTy.bits .f32 = 32 ∨ (Rect.block (s := S20000x3) S2000x3.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x3.size a ≤ S20000x3.size a
  hwx5_4 : ∀ i : grid5.Coords, EltTy.bits .f32 = 32 ∨ (Rect.block (s := S20000x3) S2000x3.size (cc5_transform_4 i) (hinb5_4 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S4000x32_S32x512_S4000x512_1_0_0_1_n_n : DotDims S4000x32 S32x512 S4000x512 where
  lhsContracting := [1]
  rhsContracting := [0]
  lhsNonContracting := [0]
  rhsNonContracting := [1]
  lhsBatch := []
  rhsBatch := []
  wf := dot_S4000x32_S32x512_S4000x512_1_0_0_1_n_n_wf
def dot_S2000x3_S3x512_S2000x512_1_0_0_1_n_n : DotDims S2000x3 S3x512 S2000x512 where
  lhsContracting := [1]
  rhsContracting := [0]
  lhsNonContracting := [0]
  rhsNonContracting := [1]
  lhsBatch := []
  rhsBatch := []
  wf := dot_S2000x3_S3x512_S2000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def dot_S2000x512_S512x3_S2000x3_1_0_0_1_n_n : DotDims S2000x512 S512x3 S2000x3 where
  lhsContracting := [1]
  rhsContracting := [0]
  lhsNonContracting := [0]
  rhsNonContracting := [1]
  lhsBatch := []
  rhsBatch := []
  wf := dot_S2000x512_S512x3_S2000x3_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S4000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2000x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S3x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v33) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S512x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v36) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v3) S4000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S512x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg2) S4000x32.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v38) S4000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v5) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S512x3.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v39) S1x3.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg1) S2000x3.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v40) S2000x3.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S320000x32 : Shape := ⟨2, ![320000, 32]⟩
abbrev S320000 : Shape := ⟨1, ![320000]⟩
abbrev S128x512 : Shape := ⟨2, ![128, 512]⟩
abbrev S512 : Shape := ⟨1, ![512]⟩
abbrev S32x512 : Shape := ⟨2, ![32, 512]⟩
abbrev S3x512 : Shape := ⟨2, ![3, 512]⟩
abbrev S512x512 : Shape := ⟨2, ![512, 512]⟩
abbrev S512x128 : Shape := ⟨2, ![512, 128]⟩
abbrev S128 : Shape := ⟨1, ![128]⟩
abbrev S512x32 : Shape := ⟨2, ![512, 32]⟩
abbrev S32 : Shape := ⟨1, ![32]⟩
abbrev S512x3 : Shape := ⟨2, ![512, 3]⟩
abbrev S3 : Shape := ⟨1, ![3]⟩
abbrev S20000x512 : Shape := ⟨2, ![20000, 512]⟩
abbrev S1x512 : Shape := ⟨2, ![1, 512]⟩
abbrev S_ : Shape := ⟨0, ![]⟩
abbrev S320000x512 : Shape := ⟨2, ![320000, 512]⟩
abbrev S320000x1 : Shape := ⟨2, ![320000, 1]⟩
abbrev S1x128 : Shape := ⟨2, ![1, 128]⟩
abbrev S1x32 : Shape := ⟨2, ![1, 32]⟩
abbrev S1x3 : Shape := ⟨2, ![1, 3]⟩

abbrev nBuf : Space → Nat
  | .hbm => 183
  | .vmem => 0
  | .smem => 0
  | _ => 0

abbrev hbmTy0_0 (i : Nat) : BufTy := match i % 128 with
  | 0 => ⟨S20000x128, .f32⟩
  | 1 => ⟨S20000x3, .f32⟩
  | 2 => ⟨S320000x32, .f32⟩
  | 3 => ⟨S320000, .i32⟩
  | 4 => ⟨S320000, .i32⟩
  | 5 => ⟨S128x512, .f32⟩
  | 6 => ⟨S512, .f32⟩
  | 7 => ⟨S32x512, .f32⟩
  | 8 => ⟨S512, .f32⟩
  | 9 => ⟨S3x512, .f32⟩
  | 10 => ⟨S512, .f32⟩
  | 11 => ⟨S512x512, .f32⟩
  | 12 => ⟨S512, .f32⟩
  | 13 => ⟨S512x128, .f32⟩
  | 14 => ⟨S128, .f32⟩
  | 15 => ⟨S512x32, .f32⟩
  | 16 => ⟨S32, .f32⟩
  | 17 => ⟨S512x3, .f32⟩
  | 18 => ⟨S3, .f32⟩
  | 19 => ⟨S20000x512, .f32⟩
  | 20 => ⟨S1x512, .f32⟩
  | 21 => ⟨S20000x512, .f32⟩
  | 22 => ⟨S20000x512, .f32⟩
  | 23 => ⟨S_, .f32⟩
  | 24 => ⟨S20000x512, .f32⟩
  | 25 => ⟨S20000x512, .f32⟩
  | 26 => ⟨S_, .f32⟩
  | 27 => ⟨S20000x512, .f32⟩
  | 28 => ⟨S20000x512, .f32⟩
  | 29 => ⟨S_, .f32⟩
  | 30 => ⟨S20000x512, .f32⟩
  | 31 => ⟨S20000x512, .f32⟩
  | 32 => ⟨S20000x512, .f32⟩
  | 33 => ⟨S_, .f32⟩
  | 34 => ⟨S20000x512, .f32⟩
  | 35 => ⟨S20000x512, .f32⟩
  | 36 => ⟨S20000x512, .f32⟩
  | 37 => ⟨S320000x512, .f32⟩
  | 38 => ⟨S1x512, .f32⟩
  | 39 => ⟨S320000x512, .f32⟩
  | 40 => ⟨S320000x512, .f32⟩
  | 41 => ⟨S_, .f32⟩
  | 42 => ⟨S320000x512, .f32⟩
  | 43 => ⟨S320000x512, .f32⟩
  | 44 => ⟨S_, .f32⟩
  | 45 => ⟨S320000x512, .f32⟩
  | 46 => ⟨S320000x512, .f32⟩
  | 47 => ⟨S_, .f32⟩
  | 48 => ⟨S320000x512, .f32⟩
  | 49 => ⟨S320000x512, .f32⟩
  | 50 => ⟨S320000x512, .f32⟩
  | 51 => ⟨S_, .f32⟩
  | 52 => ⟨S320000x512, .f32⟩
  | 53 => ⟨S320000x512, .f32⟩
  | 54 => ⟨S320000x512, .f32⟩
  | 55 => ⟨S20000x512, .f32⟩
  | 56 => ⟨S1x512, .f32⟩
  | 57 => ⟨S20000x512, .f32⟩
  | 58 => ⟨S20000x512, .f32⟩
  | 59 => ⟨S_, .f32⟩
  | 60 => ⟨S20000x512, .f32⟩
  | 61 => ⟨S20000x512, .f32⟩
  | 62 => ⟨S_, .f32⟩
  | 63 => ⟨S20000x512, .f32⟩
  | 64 => ⟨S20000x512, .f32⟩
  | 65 => ⟨S_, .f32⟩
  | 66 => ⟨S20000x512, .f32⟩
  | 67 => ⟨S20000x512, .f32⟩
  | 68 => ⟨S20000x512, .f32⟩
  | 69 => ⟨S_, .f32⟩
  | 70 => ⟨S20000x512, .f32⟩
  | 71 => ⟨S20000x512, .f32⟩
  | 72 => ⟨S20000x512, .f32⟩
  | 73 => ⟨S_, .i32⟩
  | 74 => ⟨S320000, .i32⟩
  | 75 => ⟨S320000, .i1⟩
  | 76 => ⟨S_, .i32⟩
  | 77 => ⟨S320000, .i32⟩
  | 78 => ⟨S320000, .i32⟩
  | 79 => ⟨S320000, .i32⟩
  | 80 => ⟨S320000x1, .i32⟩
  | 81 => ⟨S320000x512, .f32⟩
  | 82 => ⟨S_, .i32⟩
  | 83 => ⟨S320000, .i32⟩
  | 84 => ⟨S320000, .i1⟩
  | 85 => ⟨S_, .i32⟩
  | 86 => ⟨S320000, .i32⟩
  | 87 => ⟨S320000, .i32⟩
  | 88 => ⟨S320000, .i32⟩
  | 89 => ⟨S320000x1, .i32⟩
  | 90 => ⟨S320000x512, .f32⟩
  | 91 => ⟨S320000x512, .f32⟩
  | 92 => ⟨S320000x512, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x512, .f32⟩
  | 102 => ⟨S320000x512, .f32⟩
  | 103 => ⟨S320000x512, .f32⟩
  | 104 => ⟨S_, .f32⟩
  | 105 => ⟨S20000x512, .f32⟩
  | 106 => ⟨S320000x1, .i32⟩
  | 107 => ⟨S20000x512, .f32⟩
  | 108 => ⟨S20000x512, .f32⟩
  | 109 => ⟨S1x512, .f32⟩
  | 110 => ⟨S20000x512, .f32⟩
  | 111 => ⟨S20000x512, .f32⟩
  | 112 => ⟨S_, .f32⟩
  | 113 => ⟨S20000x512, .f32⟩
  | 114 => ⟨S20000x512, .f32⟩
  | 115 => ⟨S_, .f32⟩
  | 116 => ⟨S20000x512, .f32⟩
  | 117 => ⟨S20000x512, .f32⟩
  | 118 => ⟨S_, .f32⟩
  | 119 => ⟨S20000x512, .f32⟩
  | 120 => ⟨S20000x512, .f32⟩
  | 121 => ⟨S20000x512, .f32⟩
  | 122 => ⟨S_, .f32⟩
  | 123 => ⟨S20000x512, .f32⟩
  | 124 => ⟨S20000x512, .f32⟩
  | 125 => ⟨S20000x512, .f32⟩
  | 126 => ⟨S20000x128, .f32⟩
  | 127 => ⟨S1x128, .f32⟩
  | _ => ⟨S20000x128, .f32⟩

abbrev hbmTy0_1 (i : Nat) : BufTy := match i % 128 with
  | 0 => ⟨S20000x128, .f32⟩
  | 1 => ⟨S20000x128, .f32⟩
  | 2 => ⟨S_, .f32⟩
  | 3 => ⟨S20000x128, .f32⟩
  | 4 => ⟨S20000x128, .f32⟩
  | 5 => ⟨S_, .f32⟩
  | 6 => ⟨S20000x128, .f32⟩
  | 7 => ⟨S20000x128, .f32⟩
  | 8 => ⟨S_, .f32⟩
  | 9 => ⟨S20000x128, .f32⟩
  | 10 => ⟨S20000x128, .f32⟩
  | 11 => ⟨S20000x128, .f32⟩
  | 12 => ⟨S_, .f32⟩
  | 13 => ⟨S20000x128, .f32⟩
  | 14 => ⟨S20000x128, .f32⟩
  | 15 => ⟨S20000x128, .f32⟩
  | 16 => ⟨S20000x128, .f32⟩
  | 17 => ⟨S320000x32, .f32⟩
  | 18 => ⟨S1x32, .f32⟩
  | 19 => ⟨S320000x32, .f32⟩
  | 20 => ⟨S320000x32, .f32⟩
  | 21 => ⟨S_, .f32⟩
  | 22 => ⟨S320000x32, .f32⟩
  | 23 => ⟨S320000x32, .f32⟩
  | 24 => ⟨S_, .f32⟩
  | 25 => ⟨S320000x32, .f32⟩
  | 26 => ⟨S320000x32, .f32⟩
  | 27 => ⟨S_, .f32⟩
  | 28 => ⟨S320000x32, .f32⟩
  | 29 => ⟨S320000x32, .f32⟩
  | 30 => ⟨S320000x32, .f32⟩
  | 31 => ⟨S_, .f32⟩
  | 32 => ⟨S320000x32, .f32⟩
  | 33 => ⟨S320000x32, .f32⟩
  | 34 => ⟨S320000x32, .f32⟩
  | 35 => ⟨S320000x32, .f32⟩
  | 36 => ⟨S20000x3, .f32⟩
  | 37 => ⟨S1x3, .f32⟩
  | 38 => ⟨S20000x3, .f32⟩
  | 39 => ⟨S20000x3, .f32⟩
  | 40 => ⟨S_, .f32⟩
  | 41 => ⟨S20000x3, .f32⟩
  | 42 => ⟨S20000x3, .f32⟩
  | 43 => ⟨S_, .f32⟩
  | 44 => ⟨S20000x3, .f32⟩
  | 45 => ⟨S20000x3, .f32⟩
  | 46 => ⟨S_, .f32⟩
  | 47 => ⟨S20000x3, .f32⟩
  | 48 => ⟨S20000x3, .f32⟩
  | 49 => ⟨S20000x3, .f32⟩
  | 50 => ⟨S_, .f32⟩
  | 51 => ⟨S20000x3, .f32⟩
  | 52 => ⟨S20000x3, .f32⟩
  | 53 => ⟨S20000x3, .f32⟩
  | 54 => ⟨S20000x3, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_cst_1 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_2 : Ref sig .tc := ⟨.hbm, 33, rfl⟩
abbrev main_call0_v7 : Ref sig .tc := ⟨.hbm, 34, rfl⟩
abbrev main_call0_v8 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_cst_1 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_cst_2 : Ref sig .tc := ⟨.hbm, 51, rfl⟩
abbrev main_call1_v7 : Ref sig .tc := ⟨.hbm, 52, rfl⟩
abbrev main_call1_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_cst_1 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_cst_2 : Ref sig .tc := ⟨.hbm, 69, rfl⟩
abbrev main_call2_v7 : Ref sig .tc := ⟨.hbm, 70, rfl⟩
abbrev main_call2_v8 : Ref sig .tc := ⟨.hbm, 71, rfl⟩
abbrev main_v14 : Ref sig .tc := ⟨.hbm, 72, rfl⟩
abbrev main_c : Ref sig .tc := ⟨.hbm, 73, rfl⟩
abbrev main_v15 : Ref sig .tc := ⟨.hbm, 74, rfl⟩
abbrev main_v16 : Ref sig .tc := ⟨.hbm, 75, rfl⟩
abbrev main_c_0 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_c_1 : Ref sig .tc := ⟨.hbm, 82, rfl⟩
abbrev main_v22 : Ref sig .tc := ⟨.hbm, 83, rfl⟩
abbrev main_v23 : Ref sig .tc := ⟨.hbm, 84, rfl⟩
abbrev main_c_2 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_c_3 : Ref sig .tc := ⟨.hbm, 93, rfl⟩
abbrev main_v31 : Ref sig .tc := ⟨.hbm, 94, rfl⟩
abbrev main_v32 : Ref sig .tc := ⟨.hbm, 95, rfl⟩
abbrev main_c_4 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_call3_cst_1 : Ref sig .tc := ⟨.hbm, 118, rfl⟩
abbrev main_call3_v4 : Ref sig .tc := ⟨.hbm, 119, rfl⟩
abbrev main_call3_v5 : Ref sig .tc := ⟨.hbm, 120, rfl⟩
abbrev main_call3_v6 : Ref sig .tc := ⟨.hbm, 121, rfl⟩
abbrev main_call3_cst_2 : Ref sig .tc := ⟨.hbm, 122, rfl⟩
abbrev main_call3_v7 : Ref sig .tc := ⟨.hbm, 123, rfl⟩
abbrev main_call3_v8 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_call4_cst : Ref sig .tc := ⟨.hbm, 130, rfl⟩
abbrev main_call4_v0 : Ref sig .tc := ⟨.hbm, 131, rfl⟩
abbrev main_call4_v1 : Ref sig .tc := ⟨.hbm, 132, rfl⟩
abbrev main_call4_cst_0 : Ref sig .tc := ⟨.hbm, 133, rfl⟩
abbrev main_call4_v2 : Ref sig .tc := ⟨.hbm, 134, rfl⟩
abbrev main_call4_v3 : Ref sig .tc := ⟨.hbm, 135, rfl⟩
abbrev main_call4_cst_1 : Ref sig .tc := ⟨.hbm, 136, rfl⟩
abbrev main_call4_v4 : Ref sig .tc := ⟨.hbm, 137, rfl⟩
abbrev main_call4_v5 : Ref sig .tc := ⟨.hbm, 138, rfl⟩
abbrev main_call4_v6 : Ref sig .tc := ⟨.hbm, 139, rfl⟩
abbrev main_call4_cst_2 : Ref sig .tc := ⟨.hbm, 140, rfl⟩
abbrev main_call4_v7 : Ref sig .tc := ⟨.hbm, 141, rfl⟩
abbrev main_call4_v8 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_call5_cst : Ref sig .tc := ⟨.hbm, 149, rfl⟩
abbrev main_call5_v0 : Ref sig .tc := ⟨.hbm, 150, rfl⟩
abbrev main_call5_v1 : Ref sig .tc := ⟨.hbm, 151, rfl⟩
abbrev main_call5_cst_0 : Ref sig .tc := ⟨.hbm, 152, rfl⟩
abbrev main_call5_v2 : Ref sig .tc := ⟨.hbm, 153, rfl⟩
abbrev main_call5_v3 : Ref sig .tc := ⟨.hbm, 154, rfl⟩
abbrev main_call5_cst_1 : Ref sig .tc := ⟨.hbm, 155, rfl⟩
abbrev main_call5_v4 : Ref sig .tc := ⟨.hbm, 156, rfl⟩
abbrev main_call5_v5 : Ref sig .tc := ⟨.hbm, 157, rfl⟩
abbrev main_call5_v6 : Ref sig .tc := ⟨.hbm, 158, rfl⟩
abbrev main_call5_cst_2 : Ref sig .tc := ⟨.hbm, 159, rfl⟩
abbrev main_call5_v7 : Ref sig .tc := ⟨.hbm, 160, rfl⟩
abbrev main_call5_v8 : Ref sig .tc := ⟨.hbm, 161, rfl⟩
abbrev main_v58 : Ref sig .tc := ⟨.hbm, 162, rfl⟩
abbrev main_v59 : Ref sig .tc := ⟨.hbm, 163, rfl⟩
abbrev main_v60 : Ref sig .tc := ⟨.hbm, 164, rfl⟩
abbrev main_v61 : Ref sig .tc := ⟨.hbm, 165, rfl⟩
abbrev main_v62 : Ref sig .tc := ⟨.hbm, 166, rfl⟩
abbrev main_v63 : Ref sig .tc := ⟨.hbm, 167, rfl⟩
abbrev main_call6_cst : Ref sig .tc := ⟨.hbm, 168, rfl⟩
abbrev main_call6_v0 : Ref sig .tc := ⟨.hbm, 169, rfl⟩
abbrev main_call6_v1 : Ref sig .tc := ⟨.hbm, 170, rfl⟩
abbrev main_call6_cst_0 : Ref sig .tc := ⟨.hbm, 171, rfl⟩
abbrev main_call6_v2 : Ref sig .tc := ⟨.hbm, 172, rfl⟩
abbrev main_call6_v3 : Ref sig .tc := ⟨.hbm, 173, rfl⟩
abbrev main_call6_cst_1 : Ref sig .tc := ⟨.hbm, 174, rfl⟩
abbrev main_call6_v4 : Ref sig .tc := ⟨.hbm, 175, rfl⟩
abbrev main_call6_v5 : Ref sig .tc := ⟨.hbm, 176, rfl⟩
abbrev main_call6_v6 : Ref sig .tc := ⟨.hbm, 177, rfl⟩
abbrev main_call6_cst_2 : Ref sig .tc := ⟨.hbm, 178, rfl⟩
abbrev main_call6_v7 : Ref sig .tc := ⟨.hbm, 179, rfl⟩
abbrev main_call6_v8 : Ref sig .tc := ⟨.hbm, 180, rfl⟩
abbrev main_v64 : Ref sig .tc := ⟨.hbm, 181, rfl⟩
abbrev main_v65 : Ref sig .tc := ⟨.hbm, 182, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S_S20000x512 : S_.BroadcastsInDim S20000x512 (![] : Fin 0 → Fin S20000x512.rank)
  bcast_S1x512_S320000x512_0_1 : S1x512.BroadcastsInDim S320000x512 (![0, 1] : Fin 2 → Fin S320000x512.rank)
  bcast_S_S320000x512 : S_.BroadcastsInDim S320000x512 (![] : Fin 0 → Fin S320000x512.rank)
  bcast_S_S320000 : S_.BroadcastsInDim S320000 (![] : Fin 0 → Fin S320000.rank)
  bcast_S320000_S320000x1_0 : S320000.BroadcastsInDim S320000x1 (![0] : Fin 1 → Fin S320000x1.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S32_S1x32_1 : S32.BroadcastsInDim S1x32 (![1] : Fin 1 → Fin S1x32.rank)
  bcast_S1x32_S320000x32_0_1 : S1x32.BroadcastsInDim S320000x32 (![0, 1] : Fin 2 → Fin S320000x32.rank)
  bcast_S_S320000x32 : S_.BroadcastsInDim S320000x32 (![] : Fin 0 → Fin S320000x32.rank)
  bcast_S3_S1x3_1 : S3.BroadcastsInDim S1x3 (![1] : Fin 1 → Fin S1x3.rank)
  bcast_S1x3_S20000x3_0_1 : S1x3.BroadcastsInDim S20000x3 (![0, 1] : Fin 2 → Fin S20000x3.rank)
  bcast_S_S20000x3 : S_.BroadcastsInDim S20000x3 (![] : Fin 0 → Fin S20000x3.rank)
  dot_S20000x128_S128x512_S20000x512_1_0_0_1_n_n_wf : DotDims.WF S20000x128 S128x512 S20000x512 [1] [0] [0] [1] [] []
  dot_S320000x32_S32x512_S320000x512_1_0_0_1_n_n_wf : DotDims.WF S320000x32 S32x512 S320000x512 [1] [0] [0] [1] [] []
  dot_S20000x3_S3x512_S20000x512_1_0_0_1_n_n_wf : DotDims.WF S20000x3 S3x512 S20000x512 [1] [0] [0] [1] [] []
  gather_S20000x512_S320000x1_S320000x512_1_0_n_n_0_1_1512_wf : GatherDims.WF S20000x512 S320000x1 S320000x512 [1] [0] [] [0] [] 1 ![1, 512]
  scatter_S20000x512_S320000x1_S320000x512_1_0_0_1_wf : ScatterDims.WF S20000x512 S320000x1 S320000x512 [1] [0] [0] 1
  dot_S20000x512_S512x512_S20000x512_1_0_0_1_n_n_wf : DotDims.WF S20000x512 S512x512 S20000x512 [1] [0] [0] [1] [] []
  dot_S20000x512_S512x128_S20000x128_1_0_0_1_n_n_wf : DotDims.WF S20000x512 S512x128 S20000x128 [1] [0] [0] [1] [] []
  dot_S320000x512_S512x32_S320000x32_1_0_0_1_n_n_wf : DotDims.WF S320000x512 S512x32 S320000x32 [1] [0] [0] [1] [] []
  dot_S20000x512_S512x3_S20000x3_1_0_0_1_n_n_wf : DotDims.WF S20000x512 S512x3 S20000x3 [1] [0] [0] [1] [] []

variable [Facts₀]

def dot_S20000x128_S128x512_S20000x512_1_0_0_1_n_n : DotDims S20000x128 S128x512 S20000x512 where
  lhsContracting := [1]
  rhsContracting := [0]
  lhsNonContracting := [0]
  rhsNonContracting := [1]
  lhsBatch := []
  rhsBatch := []
  wf := dot_S20000x128_S128x512_S20000x512_1_0_0_1_n_n_wf
def dot_S320000x32_S32x512_S320000x512_1_0_0_1_n_n : DotDims S320000x32 S32x512 S320000x512 where
  lhsContracting := [1]
  rhsContracting := [0]
  lhsNonContracting := [0]
  rhsNonContracting := [1]
  lhsBatch := []
  rhsBatch := []
  wf := dot_S320000x32_S32x512_S320000x512_1_0_0_1_n_n_wf
def dot_S20000x3_S3x512_S20000x512_1_0_0_1_n_n : DotDims S20000x3 S3x512 S20000x512 where
  lhsContracting := [1]
  rhsContracting := [0]
  lhsNonContracting := [0]
  rhsNonContracting := [1]
  lhsBatch := []
  rhsBatch := []
  wf := dot_S20000x3_S3x512_S20000x512_1_0_0_1_n_n_wf
def gather_S20000x512_S320000x1_S320000x512_1_0_n_n_0_1_1512 : GatherDims S20000x512 S320000x1 S320000x512 where
  offsetDims := [1]
  collapsedSliceDims := [0]
  operandBatchingDims := []
  startIndicesBatchingDims := []
  startIndexMap := [0]
  indexVectorDim := 1
  sliceSizes := ![1, 512]
  wf := gather_S20000x512_S320000x1_S320000x512_1_0_n_n_0_1_1512_wf
def scatter_S20000x512_S320000x1_S320000x512_1_0_0_1 : ScatterDims S20000x512 S320000x1 S320000x512 where
  updateWindowDims := [1]
  insertedWindowDims := [0]
  scatterDimsToOperandDims := [0]
  indexVectorDim := 1
  wf := scatter_S20000x512_S320000x1_S320000x512_1_0_0_1_wf
def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def dot_S20000x512_S512x128_S20000x128_1_0_0_1_n_n : DotDims S20000x512 S512x128 S20000x128 where
  lhsContracting := [1]
  rhsContracting := [0]
  lhsNonContracting := [0]
  rhsNonContracting := [1]
  lhsBatch := []
  rhsBatch := []
  wf := dot_S20000x512_S512x128_S20000x128_1_0_0_1_n_n_wf
def dot_S320000x512_S512x32_S320000x32_1_0_0_1_n_n : DotDims S320000x512 S512x32 S320000x32 where
  lhsContracting := [1]
  rhsContracting := [0]
  lhsNonContracting := [0]
  rhsNonContracting := [1]
  lhsBatch := []
  rhsBatch := []
  wf := dot_S320000x512_S512x32_S320000x32_1_0_0_1_n_n_wf
def dot_S20000x512_S512x3_S20000x3_1_0_0_1_n_n : DotDims S20000x512 S512x3 S20000x3 where
  lhsContracting := [1]
  rhsContracting := [0]
  lhsNonContracting := [0]
  rhsNonContracting := [1]
  lhsBatch := []
  rhsBatch := []
  wf := dot_S20000x512_S512x3_S20000x3_1_0_0_1_n_n_wf

class Facts : Prop extends Facts₀ where

variable [Facts]
-- ==== Proof.Keep.lean ====
/-
  What each of @main's stretches of host operations and each of its launches leaves alone: a stretch every buffer it does
  not write, a launch every buffer but its output array (its input arrays are read through their windows and never written
  back). So a buffer @main never writes — an argument — holds its launch contents at every boundary.
-/
import proofs.«174336_j34986803593905_1_alg».proof.Proof.Gen.KernelIdeal.Frame
import Idealize.ShloMosaic.Lib.StableHlo.Run
import Idealize.ShloMosaic.PureOps.Ideal

set_option maxRecDepth 16384

noncomputable section

namespace Cert.KernelIdeal.Hand

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## What a stretch or a launch leaves alone -/

/-- The buffers the long host stretch between the third and the fourth launch writes. -/
def written3 : List (Ref sig .tc) :=
  [main_c, main_v6, main_v7, main_c_0, main_v8, main_v9, main_v10, main_v11, main_v12, main_c_1, main_v13, main_v14, main_c_2,
   main_v15, main_v16, main_v17, main_v18, main_v19, main_c_3, main_v20, main_v21, main_c_4, main_v22, main_v23, main_v24,
   main_v25, main_v26, main_v27, main_v28, main_v29, main_v30, main_cst, main_v31, main_v32, main_v33, main_v34, main_v35]

/-- Every buffer @main writes: an argument is none of them. -/
def outs : List (Ref sig .tc) :=
  [main_v0, main_v1, main_v2, main_v3, main_v4, main_v5, main_v36, main_v37, main_v38, main_v39, main_v40] ++ written3

theorem keep1 (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem keep2 (c : Dev nD) (b : Ref sig .tc) (hb : b ≠ main_v1) : W2 m ρ c (Proc.devRef .tc b) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg5
  · subst h1; exact (W2_arr m ρ c 1).trans (((dat0 (V1 m ρ) c).arrAt_in 1 rfl _).trans (A_eq0 (V1 m ρ) c 1))
  by_cases h2 : b = main_v0
  · subst h2; exact (W2_arr m ρ c 2).trans (((dat0 (V1 m ρ) c).arrAt_in 2 rfl _).trans (A_eq0 (V1 m ρ) c 2))
  exact W2_of_ne m ρ c b (fun w e => by
    fin_cases w
    · exact h0 e.symm
    · exact h1 e.symm
    · exact h2 e.symm
    · exact hb e.symm)

theorem keep3 (c : Dev nD) (b : Ref sig .tc) (hb : b ≠ main_v2) : W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem keep4 (c : Dev nD) (b : Ref sig .tc) (hb : b ≠ main_v3) : W4 m ρ c (Proc.devRef .tc b) = W3 m ρ c (Proc.devRef .tc b) := by
  by_cases h0 : b = main_arg2
  · subst h0; exact (W4_arr m ρ c 0).trans (((dat1 (V3 m ρ) c).arrAt_in 0 rfl _).trans (A_eq1 (V3 m ρ) c 0))
  by_cases h1 : b = main_arg7
  · subst h1; exact (W4_arr m ρ c 1).trans (((dat1 (V3 m ρ) c).arrAt_in 1 rfl _).trans (A_eq1 (V3 m ρ) c 1))
  by_cases h2 : b = main_v2
  · subst h2; exact (W4_arr m ρ c 2).trans (((dat1 (V3 m ρ) c).arrAt_in 2 rfl _).trans (A_eq1 (V3 m ρ) c 2))
  exact W4_of_ne m ρ c b (fun w e => by
    fin_cases w
    · exact h0 e.symm
    · exact h1 e.symm
    · exact h2 e.symm
    · exact hb e.symm)

theorem keep5 (c : Dev nD) (b : Ref sig .tc) (hb : b ≠ main_v4) : W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem keep6 (c : Dev nD) (b : Ref sig .tc) (hb : b ≠ main_v5) : W6 m ρ c (Proc.devRef .tc b) = W5 m ρ c (Proc.devRef .tc b) := by
  by_cases h0 : b = main_arg1
  · subst h0; exact (W6_arr m ρ c 0).trans (((dat2 (V5 m ρ) c).arrAt_in 0 rfl _).trans (A_eq2 (V5 m ρ) c 0))
  by_cases h1 : b = main_arg9
  · subst h1; exact (W6_arr m ρ c 1).trans (((dat2 (V5 m ρ) c).arrAt_in 1 rfl _).trans (A_eq2 (V5 m ρ) c 1))
  by_cases h2 : b = main_v4
  · subst h2; exact (W6_arr m ρ c 2).trans (((dat2 (V5 m ρ) c).arrAt_in 2 rfl _).trans (A_eq2 (V5 m ρ) c 2))
  exact W6_of_ne m ρ c b (fun w e => by
    fin_cases w
    · exact h0 e.symm
    · exact h1 e.symm
    · exact h2 e.symm
    · exact hb e.symm)

theorem keep7 (c : Dev nD) (b : Ref sig .tc) (hb : b ∉ written3) : W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (fun e => hb (by rw [e]; decide))))

theorem keep8 (c : Dev nD) (b : Ref sig .tc) (hb : b ≠ main_v36) : W8 m ρ c (Proc.devRef .tc b) = W7 m ρ c (Proc.devRef .tc b) := by
  by_cases h0 : b = main_v33
  · subst h0; exact (W8_arr m ρ c 0).trans (((dat3 (V7 m ρ) c).arrAt_in 0 rfl _).trans (A_eq3 (V7 m ρ) c 0))
  by_cases h1 : b = main_arg11
  · subst h1; exact (W8_arr m ρ c 1).trans (((dat3 (V7 m ρ) c).arrAt_in 1 rfl _).trans (A_eq3 (V7 m ρ) c 1))
  by_cases h2 : b = main_v34
  · subst h2; exact (W8_arr m ρ c 2).trans (((dat3 (V7 m ρ) c).arrAt_in 2 rfl _).trans (A_eq3 (V7 m ρ) c 2))
  by_cases h3 : b = main_arg13
  · subst h3; exact (W8_arr m ρ c 3).trans (((dat3 (V7 m ρ) c).arrAt_in 3 rfl _).trans (A_eq3 (V7 m ρ) c 3))
  by_cases h4 : b = main_v35
  · subst h4; exact (W8_arr m ρ c 4).trans (((dat3 (V7 m ρ) c).arrAt_in 4 rfl _).trans (A_eq3 (V7 m ρ) c 4))
  by_cases h5 : b = main_arg0
  · subst h5; exact (W8_arr m ρ c 5).trans (((dat3 (V7 m ρ) c).arrAt_in 5 rfl _).trans (A_eq3 (V7 m ρ) c 5))
  exact W8_of_ne m ρ c b (fun w e => by
    fin_cases w
    · exact h0 e.symm
    · exact h1 e.symm
    · exact h2 e.symm
    · exact h3 e.symm
    · exact h4 e.symm
    · exact h5 e.symm
    · exact hb e.symm)

theorem keep9 (c : Dev nD) (b : Ref sig .tc) (hb : b ≠ main_v37) : W9 m ρ c (Proc.devRef .tc b) = W8 m ρ c (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne hb))

theorem keep10 (c : Dev nD) (b : Ref sig .tc) (hb : b ≠ main_v38) : W10 m ρ c (Proc.devRef .tc b) = W9 m ρ c (Proc.devRef .tc b) := by
  by_cases h0 : b = main_v3
  · subst h0; exact (W10_arr m ρ c 0).trans (((dat4 (V9 m ρ) c).arrAt_in 0 rfl _).trans (A_eq4 (V9 m ρ) c 0))
  by_cases h1 : b = main_arg15
  · subst h1; exact (W10_arr m ρ c 1).trans (((dat4 (V9 m ρ) c).arrAt_in 1 rfl _).trans (A_eq4 (V9 m ρ) c 1))
  by_cases h2 : b = main_v37
  · subst h2; exact (W10_arr m ρ c 2).trans (((dat4 (V9 m ρ) c).arrAt_in 2 rfl _).trans (A_eq4 (V9 m ρ) c 2))
  by_cases h3 : b = main_arg2
  · subst h3; exact (W10_arr m ρ c 3).trans (((dat4 (V9 m ρ) c).arrAt_in 3 rfl _).trans (A_eq4 (V9 m ρ) c 3))
  exact W10_of_ne m ρ c b (fun w e => by
    fin_cases w
    · exact h0 e.symm
    · exact h1 e.symm
    · exact h2 e.symm
    · exact h3 e.symm
    · exact hb e.symm)

theorem keep11 (c : Dev nD) (b : Ref sig .tc) (hb : b ≠ main_v39) : W11 m ρ c (Proc.devRef .tc b) = W10 m ρ c (Proc.devRef .tc b) :=
  StableHlo.after_of_forall_not_mem (b := Proc.devRef .tc b) _ _ (List.forall_iff_forall_mem.mp (by
    simp only [hostOps5, List.Forall, StableHlo.reshape_writes, Finset.mem_singleton]
    exact StableHlo.devRef_ne_of_ne hb))

theorem keep12 (c : Dev nD) (b : Ref sig .tc) (hb : b ≠ main_v40) : W12 m ρ c (Proc.devRef .tc b) = W11 m ρ c (Proc.devRef .tc b) := by
  by_cases h0 : b = main_v5
  · subst h0; exact (W12_arr m ρ c 0).trans (((dat5 (V11 m ρ) c).arrAt_in 0 rfl _).trans (A_eq5 (V11 m ρ) c 0))
  by_cases h1 : b = main_arg17
  · subst h1; exact (W12_arr m ρ c 1).trans (((dat5 (V11 m ρ) c).arrAt_in 1 rfl _).trans (A_eq5 (V11 m ρ) c 1))
  by_cases h2 : b = main_v39
  · subst h2; exact (W12_arr m ρ c 2).trans (((dat5 (V11 m ρ) c).arrAt_in 2 rfl _).trans (A_eq5 (V11 m ρ) c 2))
  by_cases h3 : b = main_arg1
  · subst h3; exact (W12_arr m ρ c 3).trans (((dat5 (V11 m ρ) c).arrAt_in 3 rfl _).trans (A_eq5 (V11 m ρ) c 3))
  exact W12_of_ne m ρ c b (fun w e => by
    fin_cases w
    · exact h0 e.symm
    · exact h1 e.symm
    · exact h2 e.symm
    · exact h3 e.symm
    · exact hb e.symm)

/-! ## A buffer @main never writes holds its launch contents at every boundary -/

theorem at1 (c : Dev nD) (b : Ref sig .tc) (hb : b ∉ outs) : W1 m ρ c (Proc.devRef .tc b) = m ((c.tc : Thread nD τ).loc b) :=
  (keep1 m ρ c b (fun e => hb (by rw [e]; decide))).trans rfl
theorem at2 (c : Dev nD) (b : Ref sig .tc) (hb : b ∉ outs) : W2 m ρ c (Proc.devRef .tc b) = m ((c.tc : Thread nD τ).loc b) :=
  (keep2 m ρ c b (fun e => hb (by rw [e]; decide))).trans (at1 m ρ c b hb)
theorem at3 (c : Dev nD) (b : Ref sig .tc) (hb : b ∉ outs) : W3 m ρ c (Proc.devRef .tc b) = m ((c.tc : Thread nD τ).loc b) :=
  (keep3 m ρ c b (fun e => hb (by rw [e]; decide))).trans (at2 m ρ c b hb)
theorem at4 (c : Dev nD) (b : Ref sig .tc) (hb : b ∉ outs) : W4 m ρ c (Proc.devRef .tc b) = m ((c.tc : Thread nD τ).loc b) :=
  (keep4 m ρ c b (fun e => hb (by rw [e]; decide))).trans (at3 m ρ c b hb)
theorem at5 (c : Dev nD) (b : Ref sig .tc) (hb : b ∉ outs) : W5 m ρ c (Proc.devRef .tc b) = m ((c.tc : Thread nD τ).loc b) :=
  (keep5 m ρ c b (fun e => hb (by rw [e]; decide))).trans (at4 m ρ c b hb)
theorem at6 (c : Dev nD) (b : Ref sig .tc) (hb : b ∉ outs) : W6 m ρ c (Proc.devRef .tc b) = m ((c.tc : Thread nD τ).loc b) :=
  (keep6 m ρ c b (fun e => hb (by rw [e]; decide))).trans (at5 m ρ c b hb)
theorem at7 (c : Dev nD) (b : Ref sig .tc) (hb : b ∉ outs) : W7 m ρ c (Proc.devRef .tc b) = m ((c.tc : Thread nD τ).loc b) :=
  (keep7 m ρ c b (fun h => hb (List.mem_append_right _ h))).trans (at6 m ρ c b hb)
theorem at8 (c : Dev nD) (b : Ref sig .tc) (hb : b ∉ outs) : W8 m ρ c (Proc.devRef .tc b) = m ((c.tc : Thread nD τ).loc b) :=
  (keep8 m ρ c b (fun e => hb (by rw [e]; decide))).trans (at7 m ρ c b hb)
theorem at9 (c : Dev nD) (b : Ref sig .tc) (hb : b ∉ outs) : W9 m ρ c (Proc.devRef .tc b) = m ((c.tc : Thread nD τ).loc b) :=
  (keep9 m ρ c b (fun e => hb (by rw [e]; decide))).trans (at8 m ρ c b hb)
theorem at10 (c : Dev nD) (b : Ref sig .tc) (hb : b ∉ outs) : W10 m ρ c (Proc.devRef .tc b) = m ((c.tc : Thread nD τ).loc b) :=
  (keep10 m ρ c b (fun e => hb (by rw [e]; decide))).trans (at9 m ρ c b hb)
theorem at11 (c : Dev nD) (b : Ref sig .tc) (hb : b ∉ outs) : W11 m ρ c (Proc.devRef .tc b) = m ((c.tc : Thread nD τ).loc b) :=
  (keep11 m ρ c b (fun e => hb (by rw [e]; decide))).trans (at10 m ρ c b hb)

end Cert.KernelIdeal.Hand

end
-- ==== Proof.Spec.lean ====
/-
  The mathematics both programs compute, on the extended reals, index by index.

  * `celu`: CELU with α = 1 in the piecewise spelling, `x` where `0 < x` and `eˣ - 1` elsewhere; `celu_max_min` is the
    other spelling, `max x 0 + 1 · (e^(min x 0 / 1) - 1)`, equal to it at every extended real: for `0 < x` the second
    summand is `e⁰ - 1 = 0`, otherwise the first summand is `0` and `min x 0 = x`.
  * `lin M K N X W b`: a dense layer, entry `(r, j)` is `∑ k, X (r, k) · W (k, j)` plus the bias `b j`;
    `lin2` is the same with the bias held as a one-row matrix.
-/
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx
open scoped BigOperators

/-- CELU with α = 1: the identity above zero, `eˣ - 1` at and below it. -/
def celu (x : EReal) : EReal := if 0 < x then x else Ideal.exp x - 1

/-- The other spelling of CELU with α = 1, `max x 0 + 1 · (e^(min x 0 / 1) - 1)`, is the same function. -/
theorem celu_max_min (x : EReal) : max x 0 + 1 * (Ideal.exp (Ideal.div (min x 0) 1) - 1) = celu x := by
  have hdiv : ∀ y : EReal, Ideal.div y 1 = y := fun y => by
    unfold Ideal.div; rw [if_neg one_ne_zero, inv_one, mul_one]
  rw [hdiv, one_mul]
  unfold celu
  by_cases h : 0 < x
  · rw [if_pos h, max_eq_left h.le, min_eq_right h.le]
    have : Ideal.exp 0 = 1 := by
      show Ideal.exp ((0 : ℝ) : EReal) = 1
      show ((Real.exp 0 : ℝ) : EReal) = 1
      rw [Real.exp_zero]; rfl
    have h1 : (1 : EReal) - 1 = 0 := by
      rw [show (1 : EReal) = ((1 : ℝ) : EReal) from rfl, ← EReal.coe_sub, sub_self]; rfl
    rw [this, h1, add_zero]
  · rw [if_neg h]
    have hx : x ≤ 0 := not_lt.mp h
    rw [max_eq_right hx, min_eq_left hx, zero_add]

/-- A dense layer: `(r, j) ↦ ∑ k, X (r, k) · W (k, j) + b j`. -/
def lin (M K N : ℕ) (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, X (ix2 (i 0) k) * W (ix2 k (i 1))) + b (ix1 (i 1))

/-- The same with the bias held as a one-row matrix. -/
def lin2 (M K N : ℕ) (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => (∑ k : Fin K, X (ix2 (i 0) k) * W (ix2 k (i 1))) + b (ix2 0 (i 1))

/-- A one-row bias read through its row is the bias. -/
theorem lin2_row (M K N : ℕ) (X : (⟨2, ![M, K]⟩ : Shape).Idx → EReal) (W : (⟨2, ![K, N]⟩ : Shape).Idx → EReal)
    (b : (⟨1, ![N]⟩ : Shape).Idx → EReal) (b2 : (⟨2, ![1, N]⟩ : Shape).Idx → EReal)
    (h : ∀ j : Fin N, b2 (ix2 0 j) = b (ix1 j)) : lin2 M K N X W b2 = lin M K N X W b := by
  funext i; unfold lin2 lin; exact congrArg (fun t => _ + t) (h (i 1))

/-- A block of a dense layer is the dense layer of the blocks: if row `j 0` of the block of `X` is row `i 0` of `X`, column
    `j 1` of the block of `W` is column `i 1` of `W`, and the biases agree there, entry `j` of the one is entry `i` of the other. -/
theorem lin2_block (M Mb K N Nb : ℕ) (X : (⟨2, ![M, K]⟩ : Shape).Idx → EReal) (W : (⟨2, ![K, N]⟩ : Shape).Idx → EReal)
    (b : (⟨2, ![1, N]⟩ : Shape).Idx → EReal) (xb : (⟨2, ![Mb, K]⟩ : Shape).Idx → EReal) (wb : (⟨2, ![K, Nb]⟩ : Shape).Idx → EReal)
    (bb : (⟨2, ![1, Nb]⟩ : Shape).Idx → EReal) (i : (⟨2, ![M, N]⟩ : Shape).Idx) (j : (⟨2, ![Mb, Nb]⟩ : Shape).Idx)
    (hx : ∀ k : Fin K, xb (ix2 (j 0) k) = X (ix2 (i 0) k)) (hw : ∀ k : Fin K, wb (ix2 k (j 1)) = W (ix2 k (i 1)))
    (hb : bb (ix2 0 (j 1)) = b (ix2 0 (i 1))) :
    lin2 Mb K Nb xb wb bb j = lin2 M K N X W b i := by
  unfold lin2
  exact congrArg₂ (· + ·) (Finset.sum_congr rfl fun k _ => congrArg₂ (· * ·) (hx k) (hw k)) hb

end Cert.Spec

end
-- ==== Proof.Ops.lean ====
/-
  The two programs' vector operations read as the functions of Spec.lean, at the ideal values.

  * `celu_select`: the piecewise spelling on vectors, `select (x > 0) x (exp x - 1)`, is `celu` at every index.
  * `celu_maxmin`: the spelling `max x 0 + 1 · expm1 (min x 0 / 1)` on vectors is `celu` at every index.
  * `matmul_plain_apply` / `dotGeneral_plain_apply`: an `M×K` by `K×N` product read at `(r, j)` is `∑ k, X (r, k) · W (k, j)`:
    the contraction index has one coordinate, which runs over `Fin K`.
  * `lin_block`: product plus a one-row bias broadcast over the rows is `lin2`; `lin_host`: product plus a bias vector
    broadcast first to one row and then over the rows is `lin`.
-/
import proofs.«174336_j34986803593905_1_alg».proof.Proof.Spec
import Idealize.ShloMosaic.Lib.Pipeline.Value
import Idealize.ShloMosaic.Lib.ValueLayout

noncomputable section

namespace Cert.Spec

open Idealize.ShloMosaic Idealize.ShloMosaic.ValueIdx
open scoped BigOperators

/-- A select on `x > 0` between two extended reals. -/
theorem select_ogt_zero (x a b : EReal) :
    Scalar.select (FloatOps.cmpf (F := Ideal) (φ := .f32) .ogt x (FloatOps.ofBits .f32 0x00000000#32)) a b = if 0 < x then a else b := by
  show Scalar.select (Ideal.cmp .ogt x (Ideal.ofBits .f32 0x00000000#32)) a b = _
  rw [Ideal.ofBits_zero_f32]
  unfold Ideal.cmp
  by_cases h : 0 < x
  · rw [if_pos h]; simp only [h, decide_true]; exact select_one a b
  · rw [if_neg h]; simp only [h, decide_false]; exact select_zero a b

/-- The piecewise spelling of CELU on a vector. -/
theorem celu_select {s : Shape} (x : FVec Ideal s .f32) :
    select (cmpf .ogt x (broadcast s (Scalar.ofBits .f32 0x00000000#32))) x
        (subf (exp x) (broadcast s (Scalar.ofBits .f32 0x3F800000#32)))
      = fun i => celu (x i) := by
  funext i
  show Scalar.select (FloatOps.cmpf (F := Ideal) (φ := .f32) .ogt (x i) (FloatOps.ofBits .f32 0x00000000#32)) (x i)
      (Ideal.exp (x i) - Ideal.ofBits .f32 0x3F800000#32) = _
  rw [select_ogt_zero, Ideal.ofBits_one_f32]
  rfl

/-- The max/min spelling of CELU on a vector. -/
theorem celu_maxmin {s : Shape} (hb : (⟨0, ![]⟩ : Shape).BroadcastsInDim s ![]) (x : FVec Ideal s .f32) :
    addf (maximumf x (broadcastInDim s ![] hb (constant (F := Ideal) ⟨0, ![]⟩ .f32 0x00000000#32)))
        (mulf (broadcastInDim s ![] hb (constant (F := Ideal) ⟨0, ![]⟩ .f32 0x3F800000#32))
          (Host.expm1 (Host.divf (minimumf x (broadcastInDim s ![] hb (constant (F := Ideal) ⟨0, ![]⟩ .f32 0x00000000#32)))
            (broadcastInDim s ![] hb (constant (F := Ideal) ⟨0, ![]⟩ .f32 0x3F800000#32)))))
      = fun i => celu (x i) := by
  funext i
  show max (x i) (Ideal.ofBits .f32 0x00000000#32) + Ideal.ofBits .f32 0x3F800000#32 *
      (Ideal.exp (Ideal.div (min (x i) (Ideal.ofBits .f32 0x00000000#32)) (Ideal.ofBits .f32 0x3F800000#32)) - 1) = _
  rw [Ideal.ofBits_zero_f32, Ideal.ofBits_one_f32]
  exact celu_max_min (x i)

/-! ## A plain `M×K` by `K×N` product read at an index -/

section Plain
variable (M K N : ℕ)

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over `Fin K` of the operands' entries
    `(r, k)` and `(k, j)`. -/
theorem plain_sum {φ₁ φ₂ : FTy} (X : FVec Ideal ⟨2, ![M, K]⟩ φ₁) (W : FVec Ideal ⟨2, ![K, N]⟩ φ₂) (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b => X a * W b) el er

/-- A kernel's matrix product into a zero accumulator, read at an index. -/
theorem matmul_plain_apply {φ₁ φ₂ : FTy} (X : FVec Ideal ⟨2, ![M, K]⟩ φ₁) (W : FVec Ideal ⟨2, ![K, N]⟩ φ₂) (i : (⟨2, ![M, N]⟩ : Shape).Idx) :
    matmul (DotDims.plain M K N) none X W (constant ⟨2, ![M, N]⟩ .f32 0x00000000#32) i = ∑ k : Fin K, X (ix2 (i 0) k) * W (ix2 k (i 1)) := by
  simp only [matmul]
  rw [Ideal.matmul_constant_zero_apply]
  exact plain_sum M K N X W i

/-- The host's `dot_general`, read at an index. -/
theorem dotGeneral_plain_apply {φ₁ φ₂ : FTy} (X : FVec Ideal ⟨2, ![M, K]⟩ φ₁) (W : FVec Ideal ⟨2, ![K, N]⟩ φ₂) (i : (⟨2, ![M, N]⟩ : Shape).Idx) :
    Host.dotGeneral (DotDims.plain M K N) none X W i = ∑ k : Fin K, X (ix2 (i 0) k) * W (ix2 k (i 1)) := by
  simp only [Host.dotGeneral]
  rw [Ideal.dotGeneral_apply]
  exact plain_sum M K N X W i

/-- The kernel's dense layer on a block: the product of the operands (narrowed to bf16, which changes nothing at the
    ideal values) plus the one-row bias broadcast over the rows. -/
theorem lin_block (hc : (⟨2, ![1, N]⟩ : Shape).ShapeCasts ⟨2, ![1, N]⟩) (hb : (⟨2, ![1, N]⟩ : Shape).Broadcasts ⟨2, ![M, N]⟩)
    (h1 h2 : FTy.bf16.bits < FTy.f32.bits)
    (x : FVec Ideal ⟨2, ![M, K]⟩ .f32) (w : FVec Ideal ⟨2, ![K, N]⟩ .f32) (b : FVec Ideal ⟨2, ![1, N]⟩ .f32) :
    addf (matmul (DotDims.plain M K N) none (truncf .bf16 x h1) (truncf .bf16 w h2) (constant ⟨2, ![M, N]⟩ .f32 0x00000000#32))
        (broadcastTo ⟨2, ![M, N]⟩ (shapeCast ⟨2, ![1, N]⟩ b hc) hb)
      = lin2 M K N x w b := by
  funext i
  obtain ⟨p, q, rfl⟩ : ∃ (p : Fin M) (q : Fin N), i = ix2 p q := ⟨i 0, i 1, eq_ix2 i⟩
  rw [shapeCast_self]
  show matmul (DotDims.plain M K N) none (truncf .bf16 x h1) (truncf .bf16 w h2) (constant ⟨2, ![M, N]⟩ .f32 0x00000000#32) (ix2 p q)
      + broadcastTo ⟨2, ![M, N]⟩ b hb (ix2 p q) = _
  rw [matmul_plain_apply, broadcastTo_1b_ab_apply]
  rfl

/-- The host's dense layer: `dot_general` plus the bias vector broadcast to one row and then over the rows. -/
theorem lin_host (h1 : (⟨1, ![N]⟩ : Shape).BroadcastsInDim ⟨2, ![1, N]⟩ ![1]) (h2 : (⟨2, ![1, N]⟩ : Shape).BroadcastsInDim ⟨2, ![M, N]⟩ ![0, 1])
    (X : FVec Ideal ⟨2, ![M, K]⟩ .f32) (W : FVec Ideal ⟨2, ![K, N]⟩ .f32) (b : FVec Ideal ⟨1, ![N]⟩ .f32) :
    addf (Host.dotGeneral (DotDims.plain M K N) none X W)
        (broadcastInDim ⟨2, ![M, N]⟩ ![0, 1] h2 (broadcastInDim ⟨2, ![1, N]⟩ ![1] h1 b))
      = lin M K N X W b := by
  funext i
  obtain ⟨p, q, rfl⟩ : ∃ (p : Fin M) (q : Fin N), i = ix2 p q := ⟨i 0, i 1, eq_ix2 i⟩
  show Host.dotGeneral (DotDims.plain M K N) none X W (ix2 p q)
      + broadcastInDim ⟨2, ![M, N]⟩ ![0, 1] h2 (broadcastInDim ⟨2, ![1, N]⟩ ![1] h1 b) (ix2 p q) = _
  rw [dotGeneral_plain_apply]
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) :=
    broadcastInDim_apply _ h2 _ (ix2 p q) (ix2 (0 : Fin 1) q) (fun a => match a with
      | ⟨0, _⟩ => by show 0 = if (1 : Nat) = 1 then 0 else p.val; rw [if_pos rfl]
      | ⟨1, _⟩ => by
          show q.val = if N = 1 then 0 else q.val
          split
          · have := q.isLt; omega
          · rfl)
  have e1 : broadcastInDim ⟨2, ![1, N]⟩ ![1] h1 b (ix2 (0 : Fin 1) q) = b (ix1 q) :=
    broadcastInDim_apply _ h1 b (ix2 (0 : Fin 1) q) (ix1 q) (fun a => match a with
      | ⟨0, _⟩ => by
          show q.val = if N = 1 then 0 else q.val
          split
          · have := q.isLt; omega
          · rfl)
  rw [e2, e1]
  rfl

end Plain

end Cert.Spec

end
-- ==== Proof.Region0.lean ====
/-
  What an expanding dense layer's launch leaves in its output array: grid point `t` writes back the `t`-th block of rows of
  `celu (X · W + b)`, where `X`, `W` and the one-row bias `b` are the arrays the launch finds; the row blocks tile the
  array, so it ends holding that function whole.
-/
import proofs.«174336_j34986803593905_1_alg».proof.Proof.Gen.KernelIdeal.Frame
import proofs.«174336_j34986803593905_1_alg».proof.Proof.Ops
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz0 : (![0, 0] : Fin 2 → Nat) = fun _ => 0 := funext fun a => by fin_cases a <;> rfl

/-- The body's one stored value is `celu` of the dense layer of its three loaded blocks. -/
theorem pay0 (x : Vec Ideal S2000x128 .f32) (w : Vec Ideal S128x512 .f32) (b : Vec Ideal S1x512 .f32) :
    k0_pay1 (F := Ideal) x w b = fun i => celu (lin2 2000 128 512 x w b i) := by
  unfold k0_pay1
  exact (celu_select _).trans (funext fun i => congrArg celu (congrFun (lin_block 2000 128 512 _ _ _ _ x w b) i))

/-- The function the output array ends holding. -/
abbrev G0 (c : Dev nD) : S20000x512.Idx → EReal :=
  fun i => celu (lin2 20000 128 512 (V c main_arg0) (V c main_arg5) (V c main_v0) i)

/-- The printed index maps over the grid: the row-blocked windows sit at block `t`, the others at block `0`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G0`. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x512) hz0, View.ld_unit_zero (S := S1x512) hz0]
  rw [pay0]
  obtain ⟨e00, e01, e10, e11, e20, e21, e30, e31⟩ := idx0 t
  funext j
  have hj0 : (j 0).val < 2000 := (j 0).isLt
  have hj1 : (j 1).val < 512 := (j 1).isLt
  show celu (lin2 2000 128 512 (iblk0 V c 0 t) (iblk0 V c 1 t) (iblk0 V c 2 t) j)
      = celu (lin2 20000 128 512 (V c main_arg0) (V c main_arg5) (V c main_v0) (((cfg0.win 3).blk t).view.emb j))
  refine congrArg celu (lin2_block 20000 2000 128 512 512 _ _ _ _ _ _ _ j (fun k => ?_) (fun k => ?_) ?_)
  · show V c main_arg0 (((cfg0.win 0).blk t).view.emb (ix2 (j 0) k)) = V c main_arg0 (ix2 ((((cfg0.win 3).blk t).view.emb j) 0) k)
    refine congrArg (V c main_arg0) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show V c main_arg5 (((cfg0.win 1).blk t).view.emb (ix2 k (j 1))) = V c main_arg5 (ix2 k ((((cfg0.win 3).blk t).view.emb j) 1))
    refine congrArg (V c main_arg5) (funext fun a => Fin.ext ?_)
    match a with
    | ⟨0, _⟩ => show win0_1.index t (0 : Fin 2) * 128 + 1 * k.val = k.val; omega
    | ⟨1, _⟩ => show win0_1.index t (1 : Fin 2) * 512 + 1 * (j 1).val = win0_3.index t (1 : Fin 2) * 512 + 1 * (j 1).val; omega
  · show V c main_v0 (((cfg0.win 2).blk t).view.emb (ix2 0 (j 1))) = V c main_v0 (ix2 0 ((((cfg0.win 3).blk t).view.emb j) 1))
    refine congrArg (V c main_v0) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-- An index of the array is in point `t`'s block iff each coordinate is in the block's range on its axis. -/
theorem mem_blk0 (t : Fin cfg0.N) (i : S20000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v1).slice (win0_3.rect t)).set ↔ _
  rw [View.set_slice_whole, Rect.mem_set_unit]
  exact Iff.rfl

/-- Every index of the array lies in the block of the point its row falls in. -/
theorem cover0 (i : S20000x512.Idx) : ∃ t : Fin cfg0.N, (cfg0.win 3).flush t = true ∧ i ∈ ((cfg0.win 3).blk t).view.set := by
  have hi0 : (i 0).val < 20000 := (i 0).isLt
  have hi1 : (i 1).val < 512 := (i 1).isLt
  have hN : cfg0.N = 10 := N_0
  let t : Fin cfg0.N := ⟨(i 0).val / 2000, by rw [hN]; omega⟩
  obtain ⟨e00, e01, e10, e11, e20, e21, e30, e31⟩ := idx0 t
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000
              rw [e30]; show (i 0).val / 2000 * 2000 ≤ (i 0).val ∧ (i 0).val < (i 0).val / 2000 * 2000 + 2000; omega
  | ⟨1, _⟩ => show win0_3.index t (1 : Fin 2) * 512 ≤ (i 1).val ∧ (i 1).val < win0_3.index t (1 : Fin 2) * 512 + 512
              rw [e31]; omega

/-- The output array after the launch. -/
theorem region0_out (c : Dev nD) : (dat0 V c).arrAt 3 cfg0.N = G0 V c :=
  (dat0 V c).arrAt_eq_of_cover 3 (G0 V c) (fun t _ => flushed0 V c t) (cover0)

end Cert.KernelIdeal.Hand

end
-- ==== Proof.Region1.lean ====
/-
  What an expanding dense layer's launch leaves in its output array: grid point `t` writes back the `t`-th block of rows of
  `celu (X · W + b)`, where `X`, `W` and the one-row bias `b` are the arrays the launch finds; the row blocks tile the
  array, so it ends holding that function whole.
-/
import proofs.«174336_j34986803593905_1_alg».proof.Proof.Gen.KernelIdeal.Frame
import proofs.«174336_j34986803593905_1_alg».proof.Proof.Ops
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz1 : (![0, 0] : Fin 2 → Nat) = fun _ => 0 := funext fun a => by fin_cases a <;> rfl

/-- The body's one stored value is `celu` of the dense layer of its three loaded blocks. -/
theorem pay1 (x : Vec Ideal S4000x32 .f32) (w : Vec Ideal S32x512 .f32) (b : Vec Ideal S1x512 .f32) :
    k1_pay1 (F := Ideal) x w b = fun i => celu (lin2 4000 32 512 x w b i) := by
  unfold k1_pay1
  exact (celu_select _).trans (funext fun i => congrArg celu (congrFun (lin_block 4000 32 512 _ _ _ _ x w b) i))

/-- The function the output array ends holding. -/
abbrev G1 (c : Dev nD) : S320000x512.Idx → EReal :=
  fun i => celu (lin2 320000 32 512 (V c main_arg2) (V c main_arg7) (V c main_v2) i)

/-- The printed index maps over the grid: the row-blocked windows sit at block `t`, the others at block `0`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `G1`. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S4000x32) hz1, View.ld_unit_zero (S := S32x512) hz1, View.ld_unit_zero (S := S1x512) hz1]
  rw [pay1]
  obtain ⟨e00, e01, e10, e11, e20, e21, e30, e31⟩ := idx1 t
  funext j
  have hj0 : (j 0).val < 4000 := (j 0).isLt
  have hj1 : (j 1).val < 512 := (j 1).isLt
  show celu (lin2 4000 32 512 (iblk1 V c 0 t) (iblk1 V c 1 t) (iblk1 V c 2 t) j)
      = celu (lin2 320000 32 512 (V c main_arg2) (V c main_arg7) (V c main_v2) (((cfg1.win 3).blk t).view.emb j))
  refine congrArg celu (lin2_block 320000 4000 32 512 512 _ _ _ _ _ _ _ j (fun k => ?_) (fun k => ?_) ?_)
  · show V c main_arg2 (((cfg1.win 0).blk t).view.emb (ix2 (j 0) k)) = V c main_arg2 (ix2 ((((cfg1.win 3).blk t).view.emb j) 0) k)
    refine congrArg (V c main_arg2) (funext fun a => Fin.ext ?_)
    match a with
    | ⟨0, _⟩ => show win1_0.index t (0 : Fin 2) * 4000 + 1 * (j 0).val = win1_3.index t (0 : Fin 2) * 4000 + 1 * (j 0).val; omega
    | ⟨1, _⟩ => show win1_0.index t (1 : Fin 2) * 32 + 1 * k.val = k.val; omega
  · show V c main_arg7 (((cfg1.win 1).blk t).view.emb (ix2 k (j 1))) = V c main_arg7 (ix2 k ((((cfg1.win 3).blk t).view.emb j) 1))
    refine congrArg (V c main_arg7) (funext fun a => Fin.ext ?_)
    match a with
    | ⟨0, _⟩ => show win1_1.index t (0 : Fin 2) * 32 + 1 * k.val = k.val; omega
    | ⟨1, _⟩ => show win1_1.index t (1 : Fin 2) * 512 + 1 * (j 1).val = win1_3.index t (1 : Fin 2) * 512 + 1 * (j 1).val; omega
  · show V c main_v2 (((cfg1.win 2).blk t).view.emb (ix2 0 (j 1))) = V c main_v2 (ix2 0 ((((cfg1.win 3).blk t).view.emb j) 1))
    refine congrArg (V c main_v2) (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega

/-- An index of the array is in point `t`'s block iff each coordinate is in the block's range on its axis. -/
theorem mem_blk1 (t : Fin cfg1.N) (i : S320000x512.Idx) :
    i ∈ ((cfg1.win 3).blk t).view.set ↔ ∀ a : Fin 2, win1_3.index t a * S4000x512.size a ≤ (i a).val ∧ (i a).val < win1_3.index t a * S4000x512.size a + S4000x512.size a := by
  show i ∈ ((View.whole main_v3).slice (win1_3.rect t)).set ↔ _
  rw [View.set_slice_whole, Rect.mem_set_unit]
  exact Iff.rfl

/-- Every index of the array lies in the block of the point its row falls in. -/
theorem cover1 (i : S320000x512.Idx) : ∃ t : Fin cfg1.N, (cfg1.win 3).flush t = true ∧ i ∈ ((cfg1.win 3).blk t).view.set := by
  have hi0 : (i 0).val < 320000 := (i 0).isLt
  have hi1 : (i 1).val < 512 := (i 1).isLt
  have hN : cfg1.N = 80 := N_1
  let t : Fin cfg1.N := ⟨(i 0).val / 4000, by rw [hN]; omega⟩
  obtain ⟨e00, e01, e10, e11, e20, e21, e30, e31⟩ := idx1 t
  refine ⟨t, flush1_3 t, ?_⟩
  rw [mem_blk1]
  intro a
  match a with
  | ⟨0, _⟩ => show win1_3.index t (0 : Fin 2) * 4000 ≤ (i 0).val ∧ (i 0).val < win1_3.index t (0 : Fin 2) * 4000 + 4000
              rw [e30]; show (i 0).val / 4000 * 4000 ≤ (i 0).val ∧ (i 0).val < (i 0).val / 4000 * 4000 + 4000; omega
  | ⟨1, _⟩ => show win1_3.index t (1 : Fin 2) * 512 ≤ (i 1).val ∧ (i 1).val < win1_3.index t (1 : Fin 2) * 512 + 512
              rw [e31]; omega

/-- The output array after the launch. -/
theorem region1_out (c : Dev nD) : (dat1 V c).arrAt 3 cfg1.N = G1 V c :=
  (dat1 V c).arrAt_eq_of_cover 3 (G1 V c) (fun t _ => flushed1 V c t) (cover1)

end Cert.KernelIdeal.Hand

end
-- ==== Proof.Region2.lean ====
/-
  What an expanding dense layer's launch leaves in its output array: grid point `t` writes back the `t`-th block of rows of
  `celu (X · W + b)`, where `X`, `W` and the one-row bias `b` are the arrays the launch finds; the row blocks tile the
  array, so it ends holding that function whole.
-/
import proofs.«174336_j34986803593905_1_alg».proof.Proof.Gen.KernelIdeal.Frame
import proofs.«174336_j34986803593905_1_alg».proof.Proof.Ops
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz2 : (![0, 0] : Fin 2 → Nat) = fun _ => 0 := funext fun a => by fin_cases a <;> rfl

/-- The body's one stored value is `celu` of the dense layer of its three loaded blocks. -/
theorem pay2 (x : Vec Ideal S2000x3 .f32) (w : Vec Ideal S3x512 .f32) (b : Vec Ideal S1x512 .f32) :
    k2_pay1 (F := Ideal) x w b = fun i => celu (lin2 2000 3 512 x w b i) := by
  unfold k2_pay1
  exact (celu_select _).trans (funext fun i => congrArg celu (congrFun (lin_block 2000 3 512 _ _ _ _ x w b) i))

/-- The function the output array ends holding. -/
abbrev G2 (c : Dev nD) : S20000x512.Idx → EReal :=
  fun i => celu (lin2 20000 3 512 (V c main_arg1) (V c main_arg9) (V c main_v4) i)

/-- The printed index maps over the grid: the row-blocked windows sit at block `t`, the others at block `0`. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G2`. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz2]
  simp only [View.ld_unit_zero (S := S2000x3) hz2, View.ld_unit_zero (S := S3x512) hz2, View.ld_unit_zero (S := S1x512) hz2]
  rw [pay2]
  obtain ⟨e00, e01, e10, e11, e20, e21, e30, e31⟩ := idx2 t
  funext j
  have hj0 : (j 0).val < 2000 := (j 0).isLt
  have hj1 : (j 1).val < 512 := (j 1).isLt
  show celu (lin2 2000 3 512 (iblk2 V c 0 t) (iblk2 V c 1 t) (iblk2 V c 2 t) j)
      = celu (lin2 20000 3 512 (V c main_arg1) (V c main_arg9) (V c main_v4) (((cfg2.win 3).blk t).view.emb j))
  refine congrArg celu (lin2_block 20000 2000 3 512 512 _ _ _ _ _ _ _ j (fun k => ?_) (fun k => ?_) ?_)
  · show V c main_arg1 (((cfg2.win 0).blk t).view.emb (ix2 (j 0) k)) = V c main_arg1 (ix2 ((((cfg2.win 3).blk t).view.emb j) 0) k)
    refine congrArg (V c main_arg1) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 3 + 1 * k.val = k.val; omega
  · show V c main_arg9 (((cfg2.win 1).blk t).view.emb (ix2 k (j 1))) = V c main_arg9 (ix2 k ((((cfg2.win 3).blk t).view.emb j) 1))
    refine congrArg (V c main_arg9) (funext fun a => Fin.ext ?_)
    match a with
    | ⟨0, _⟩ => show win2_1.index t (0 : Fin 2) * 3 + 1 * k.val = k.val; omega
    | ⟨1, _⟩ => show win2_1.index t (1 : Fin 2) * 512 + 1 * (j 1).val = win2_3.index t (1 : Fin 2) * 512 + 1 * (j 1).val; omega
  · show V c main_v4 (((cfg2.win 2).blk t).view.emb (ix2 0 (j 1))) = V c main_v4 (ix2 0 ((((cfg2.win 3).blk t).view.emb j) 1))
    refine congrArg (V c main_v4) (funext fun a => Fin.ext ?_)
    match a with
    | ⟨0, _⟩ => show win2_2.index t (0 : Fin 2) * 1 + 1 * 0 = 0; omega
    | ⟨1, _⟩ => show win2_2.index t (1 : Fin 2) * 512 + 1 * (j 1).val = win2_3.index t (1 : Fin 2) * 512 + 1 * (j 1).val; omega

/-- An index of the array is in point `t`'s block iff each coordinate is in the block's range on its axis. -/
theorem mem_blk2 (t : Fin cfg2.N) (i : S20000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v5).slice (win2_3.rect t)).set ↔ _
  rw [View.set_slice_whole, Rect.mem_set_unit]
  exact Iff.rfl

/-- Every index of the array lies in the block of the point its row falls in. -/
theorem cover2 (i : S20000x512.Idx) : ∃ t : Fin cfg2.N, (cfg2.win 3).flush t = true ∧ i ∈ ((cfg2.win 3).blk t).view.set := by
  have hi0 : (i 0).val < 20000 := (i 0).isLt
  have hi1 : (i 1).val < 512 := (i 1).isLt
  have hN : cfg2.N = 10 := N_2
  let t : Fin cfg2.N := ⟨(i 0).val / 2000, by rw [hN]; omega⟩
  obtain ⟨e00, e01, e10, e11, e20, e21, e30, e31⟩ := idx2 t
  refine ⟨t, flush2_3 t, ?_⟩
  rw [mem_blk2]
  intro a
  match a with
  | ⟨0, _⟩ => show win2_3.index t (0 : Fin 2) * 2000 ≤ (i 0).val ∧ (i 0).val < win2_3.index t (0 : Fin 2) * 2000 + 2000
              rw [e30]; show (i 0).val / 2000 * 2000 ≤ (i 0).val ∧ (i 0).val < (i 0).val / 2000 * 2000 + 2000; omega
  | ⟨1, _⟩ => show win2_3.index t (1 : Fin 2) * 512 ≤ (i 1).val ∧ (i 1).val < win2_3.index t (1 : Fin 2) * 512 + 512
              rw [e31]; omega

/-- The output array after the launch. -/
theorem region2_out (c : Dev nD) : (dat2 V c).arrAt 3 cfg2.N = G2 V c :=
  (dat2 V c).arrAt_eq_of_cover 3 (G2 V c) (fun t _ => flushed2 V c t) (cover2)

end Cert.KernelIdeal.Hand

end
-- ==== Proof.Resid.lean ====
/-
  A dense layer with CELU added onto a residual, with the bias held as a one-row matrix, and its blocks.
-/
import proofs.«174336_j34986803593905_1_alg».proof.Proof.Spec

noncomputable section

namespace Cert.Spec

open Idealize.ShloMosaic Idealize.ShloMosaic.ValueIdx

/-- A dense layer followed by CELU, the bias a one-row matrix. -/
def expand2 (M K N : ℕ) (X : (⟨2, ![M, K]⟩ : Shape).Idx → EReal) (W : (⟨2, ![K, N]⟩ : Shape).Idx → EReal)
    (b : (⟨2, ![1, N]⟩ : Shape).Idx → EReal) : (⟨2, ![M, N]⟩ : Shape).Idx → EReal :=
  fun i => celu (lin2 M K N X W b i)

/-- A residual plus a dense layer followed by CELU, the bias a one-row matrix. -/
def reduce2 (M K N : ℕ) (R : (⟨2, ![M, N]⟩ : Shape).Idx → EReal) (X : (⟨2, ![M, K]⟩ : Shape).Idx → EReal)
    (W : (⟨2, ![K, N]⟩ : Shape).Idx → EReal) (b : (⟨2, ![1, N]⟩ : Shape).Idx → EReal) : (⟨2, ![M, N]⟩ : Shape).Idx → EReal :=
  fun i => R i + celu (lin2 M K N X W b i)

/-- Entry `j` of the layer on blocks is entry `i` of the layer on the arrays, when the blocks are the arrays' rows and
    columns there. -/
theorem reduce2_block (M Mb K N Nb : ℕ) (R : (⟨2, ![M, N]⟩ : Shape).Idx → EReal) (X : (⟨2, ![M, K]⟩ : Shape).Idx → EReal)
    (W : (⟨2, ![K, N]⟩ : Shape).Idx → EReal) (b : (⟨2, ![1, N]⟩ : Shape).Idx → EReal)
    (rb : (⟨2, ![Mb, Nb]⟩ : Shape).Idx → EReal) (xb : (⟨2, ![Mb, K]⟩ : Shape).Idx → EReal) (wb : (⟨2, ![K, Nb]⟩ : Shape).Idx → EReal)
    (bb : (⟨2, ![1, Nb]⟩ : Shape).Idx → EReal) (i : (⟨2, ![M, N]⟩ : Shape).Idx) (j : (⟨2, ![Mb, Nb]⟩ : Shape).Idx)
    (hr : rb j = R i)
    (hx : ∀ k : Fin K, xb (ix2 (j 0) k) = X (ix2 (i 0) k)) (hw : ∀ k : Fin K, wb (ix2 k (j 1)) = W (ix2 k (i 1)))
    (hb : bb (ix2 0 (j 1)) = b (ix2 0 (i 1))) :
    reduce2 Mb K Nb rb xb wb bb j = reduce2 M K N R X W b i := by
  unfold reduce2
  exact congrArg₂ (· + ·) hr (congrArg celu (lin2_block M Mb K N Nb X W b xb wb bb i j hx hw hb))

end Cert.Spec

end
-- ==== Proof.Region3.lean ====
/-
  What the node-output launch leaves in its output array: grid point `t` writes back the `t`-th block of rows of
  `R + celu (celu (X · W₁ + b₁) · W₂ + b₂)`, where `X`, the two weight matrices, the two one-row biases and the residual
  `R` are the arrays the launch finds; a row of the inner layer needs only that row of `X`, so the block of the composite is the
  composite of the blocks, and the row blocks tile the array.
-/
import proofs.«174336_j34986803593905_1_alg».proof.Proof.Gen.KernelIdeal.Frame
import proofs.«174336_j34986803593905_1_alg».proof.Proof.Ops
import proofs.«174336_j34986803593905_1_alg».proof.Proof.Resid
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz3 : (![0, 0] : Fin 2 → Nat) = fun _ => 0 := funext fun a => by fin_cases a <;> rfl

/-- The body's one stored value: the residual block plus `celu` of the second dense layer of `celu` of the first. -/
theorem pay3 (x : Vec Ideal S2000x512 .f32) (w1 : Vec Ideal S512x512 .f32) (b1 : Vec Ideal S1x512 .f32)
    (w2 : Vec Ideal S512x128 .f32) (b2 : Vec Ideal S1x128 .f32) (hf : Vec Ideal S2000x128 .f32) :
    k3_pay1 (F := Ideal) x w1 b1 w2 b2 hf = reduce2 2000 512 128 hf (expand2 2000 512 512 x w1 b1) w2 b2 := by
  unfold k3_pay1
  have hsc : lin2 2000 512 512 (shapeCast S2000x512 x shapeCasts_S2000x512_S2000x512) w1 b1 = lin2 2000 512 512 x w1 b1 := by
    rw [shapeCast_self]
  exact congrArg (addf hf) ((celu_select _).trans (funext fun i => congrArg celu (congrFun
    ((lin_block 2000 512 128 _ _ _ _ _ w2 b2).trans (congrArg (fun z => lin2 2000 512 128 z w2 b2)
      ((celu_select _).trans (funext fun i' => congrArg celu (congrFun ((lin_block 2000 512 512 _ _ _ _ _ w1 b1).trans hsc) i'))))) i)))

/-- The function the output array ends holding. -/
abbrev G3 (c : Dev nD) : S20000x128.Idx → EReal :=
  reduce2 20000 512 128 (V c main_arg0) (expand2 20000 512 512 (V c main_v33) (V c main_arg11) (V c main_v34)) (V c main_arg13) (V c main_v35)

/-- The printed index maps over the grid: the row-blocked windows sit at block `t`, the others at block `0`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What point `t` writes back is block `t` of `G3`. -/
theorem flushed3 (c : Dev nD) (t : Fin cfg3.N) :
    (dat3 V c).flushed 6 t = ((cfg3.win 6).blk t).view.read (Elt Ideal) (G3 V c) := by
  show (cfg3.win 6).cut (grid3.coords t) ((dat3 V c).after 6 t) = _
  rw [after3_6]
  unfold out3_6
  rw [View.canon_unit_zero hz3]
  simp only [View.ld_unit_zero (S := S2000x512) hz3, View.ld_unit_zero (S := S512x512) hz3, View.ld_unit_zero (S := S1x512) hz3,
    View.ld_unit_zero (S := S512x128) hz3, View.ld_unit_zero (S := S1x128) hz3, View.ld_unit_zero (S := S2000x128) hz3]
  rw [pay3]
  obtain ⟨e00, e01, e10, e11, e20, e21, e30, e31, e40, e41, e50, e51, e60, e61⟩ := idx3 t
  funext j
  have hj0 : (j 0).val < 2000 := (j 0).isLt
  have hj1 : (j 1).val < 128 := (j 1).isLt
  show reduce2 2000 512 128 (iblk3 V c 5 t) (expand2 2000 512 512 (iblk3 V c 0 t) (iblk3 V c 1 t) (iblk3 V c 2 t)) (iblk3 V c 3 t) (iblk3 V c 4 t) j
      = reduce2 20000 512 128 (V c main_arg0) (expand2 20000 512 512 (V c main_v33) (V c main_arg11) (V c main_v34)) (V c main_arg13) (V c main_v35)
          (((cfg3.win 6).blk t).view.emb j)
  refine reduce2_block 20000 2000 512 128 128 _ _ _ _ _ _ _ _ _ j ?_ (fun k => ?_) (fun k => ?_) ?_
  · show V c main_arg0 (((cfg3.win 5).blk t).view.emb j) = V c main_arg0 (((cfg3.win 6).blk t).view.emb j)
    refine congrArg (V c main_arg0) (funext fun a => Fin.ext ?_)
    match a with
    | ⟨0, _⟩ => show win3_5.index t (0 : Fin 2) * 2000 + 1 * (j 0).val = win3_6.index t (0 : Fin 2) * 2000 + 1 * (j 0).val; omega
    | ⟨1, _⟩ => show win3_5.index t (1 : Fin 2) * 128 + 1 * (j 1).val = win3_6.index t (1 : Fin 2) * 128 + 1 * (j 1).val; omega
  · refine congrArg celu (lin2_block 20000 2000 512 512 512 _ _ _ _ _ _ (ix2 ((((cfg3.win 6).blk t).view.emb j) 0) k) (ix2 (j 0) k)
      (fun k' => ?_) (fun k' => ?_) ?_)
    · show V c main_v33 (((cfg3.win 0).blk t).view.emb (ix2 (j 0) k')) = V c main_v33 (ix2 ((((cfg3.win 6).blk t).view.emb j) 0) k')
      refine congrArg (V c main_v33) (funext fun a => Fin.ext ?_)
      match a with
      | ⟨0, _⟩ => show win3_0.index t (0 : Fin 2) * 2000 + 1 * (j 0).val = win3_6.index t (0 : Fin 2) * 2000 + 1 * (j 0).val; omega
      | ⟨1, _⟩ => show win3_0.index t (1 : Fin 2) * 512 + 1 * k'.val = k'.val; omega
    · show V c main_arg11 (((cfg3.win 1).blk t).view.emb (ix2 k' k)) = V c main_arg11 (ix2 k' k)
      refine congrArg (V c main_arg11) (funext fun a => Fin.ext ?_)
      match a with
      | ⟨0, _⟩ => show win3_1.index t (0 : Fin 2) * 512 + 1 * k'.val = k'.val; omega
      | ⟨1, _⟩ => show win3_1.index t (1 : Fin 2) * 512 + 1 * k.val = k.val; omega
    · show V c main_v34 (((cfg3.win 2).blk t).view.emb (ix2 0 k)) = V c main_v34 (ix2 0 k)
      refine congrArg (V c main_v34) (funext fun a => Fin.ext ?_)
      match a with
      | ⟨0, _⟩ => show win3_2.index t (0 : Fin 2) * 1 + 1 * 0 = 0; omega
      | ⟨1, _⟩ => show win3_2.index t (1 : Fin 2) * 512 + 1 * k.val = k.val; omega
  · show V c main_arg13 (((cfg3.win 3).blk t).view.emb (ix2 k (j 1))) = V c main_arg13 (ix2 k ((((cfg3.win 6).blk t).view.emb j) 1))
    refine congrArg (V c main_arg13) (funext fun a => Fin.ext ?_)
    match a with
    | ⟨0, _⟩ => show win3_3.index t (0 : Fin 2) * 512 + 1 * k.val = k.val; omega
    | ⟨1, _⟩ => show win3_3.index t (1 : Fin 2) * 128 + 1 * (j 1).val = win3_6.index t (1 : Fin 2) * 128 + 1 * (j 1).val; omega
  · show V c main_v35 (((cfg3.win 4).blk t).view.emb (ix2 0 (j 1))) = V c main_v35 (ix2 0 ((((cfg3.win 6).blk t).view.emb j) 1))
    refine congrArg (V c main_v35) (funext fun a => Fin.ext ?_)
    match a with
    | ⟨0, _⟩ => show win3_4.index t (0 : Fin 2) * 1 + 1 * 0 = 0; omega
    | ⟨1, _⟩ => show win3_4.index t (1 : Fin 2) * 128 + 1 * (j 1).val = win3_6.index t (1 : Fin 2) * 128 + 1 * (j 1).val; omega

/-- An index of the array is in point `t`'s block iff each coordinate is in the block's range on its axis. -/
theorem mem_blk3 (t : Fin cfg3.N) (i : S20000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v36).slice (win3_6.rect t)).set ↔ _
  rw [View.set_slice_whole, Rect.mem_set_unit]
  exact Iff.rfl

/-- Every index of the array lies in the block of the point its row falls in. -/
theorem cover3 (i : S20000x128.Idx) : ∃ t : Fin cfg3.N, (cfg3.win 6).flush t = true ∧ i ∈ ((cfg3.win 6).blk t).view.set := by
  have hi0 : (i 0).val < 20000 := (i 0).isLt
  have hi1 : (i 1).val < 128 := (i 1).isLt
  have hN : cfg3.N = 10 := N_3
  let t : Fin cfg3.N := ⟨(i 0).val / 2000, by rw [hN]; omega⟩
  obtain ⟨e00, e01, e10, e11, e20, e21, e30, e31, e40, e41, e50, e51, e60, e61⟩ := idx3 t
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000
              rw [e60]; show (i 0).val / 2000 * 2000 ≤ (i 0).val ∧ (i 0).val < (i 0).val / 2000 * 2000 + 2000; omega
  | ⟨1, _⟩ => show win3_6.index t (1 : Fin 2) * 128 ≤ (i 1).val ∧ (i 1).val < win3_6.index t (1 : Fin 2) * 128 + 128
              rw [e61]; omega

/-- The output array after the launch. -/
theorem region3_out (c : Dev nD) : (dat3 V c).arrAt 6 cfg3.N = G3 V c :=
  (dat3 V c).arrAt_eq_of_cover 6 (G3 V c) (fun t _ => flushed3 V c t) (cover3)

end Cert.KernelIdeal.Hand

end
-- ==== Proof.Region4.lean ====
/-
  What a reducing dense layer's launch leaves in its output array: grid point `t` writes back the `t`-th block of rows of
  `R + celu (X · W + b)`, where `X`, `W`, the one-row bias `b` and the residual `R` are the arrays the launch finds; the row
  blocks tile the array, so it ends holding that function whole.
-/
import proofs.«174336_j34986803593905_1_alg».proof.Proof.Gen.KernelIdeal.Frame
import proofs.«174336_j34986803593905_1_alg».proof.Proof.Ops
import proofs.«174336_j34986803593905_1_alg».proof.Proof.Resid
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz4 : (![0, 0] : Fin 2 → Nat) = fun _ => 0 := funext fun a => by fin_cases a <;> rfl

/-- The body's one stored value is the residual block plus `celu` of the dense layer of the other three loaded blocks. -/
theorem pay4 (x : Vec Ideal S4000x512 .f32) (w : Vec Ideal S512x32 .f32) (b : Vec Ideal S1x32 .f32) (res : Vec Ideal S4000x32 .f32) :
    k4_pay1 (F := Ideal) x w b res = reduce2 4000 512 32 res x w b := by
  unfold k4_pay1
  have h : lin2 4000 512 32 (shapeCast S4000x512 x shapeCasts_S4000x512_S4000x512) w b = lin2 4000 512 32 x w b := by
    rw [shapeCast_self]
  exact congrArg (addf res) ((celu_select _).trans (funext fun i => congrArg celu (congrFun ((lin_block 4000 512 32 _ _ _ _ _ w b).trans h) i)))

/-- The function the output array ends holding. -/
abbrev G4 (c : Dev nD) : S320000x32.Idx → EReal :=
  reduce2 320000 512 32 (V c main_arg2) (V c main_v3) (V c main_arg15) (V c main_v37)

/-- The printed index maps over the grid: the row-blocked windows sit at block `t`, the others at block `0`. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What point `t` writes back is block `t` of `G4`. -/
theorem flushed4 (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz4]
  simp only [View.ld_unit_zero (S := S4000x512) hz4, View.ld_unit_zero (S := S512x32) hz4, View.ld_unit_zero (S := S1x32) hz4,
    View.ld_unit_zero (S := S4000x32) hz4]
  rw [pay4]
  obtain ⟨e00, e01, e10, e11, e20, e21, e30, e31, e40, e41⟩ := idx4 t
  funext j
  have hj0 : (j 0).val < 4000 := (j 0).isLt
  have hj1 : (j 1).val < 32 := (j 1).isLt
  show reduce2 4000 512 32 (iblk4 V c 3 t) (iblk4 V c 0 t) (iblk4 V c 1 t) (iblk4 V c 2 t) j
      = reduce2 320000 512 32 (V c main_arg2) (V c main_v3) (V c main_arg15) (V c main_v37) (((cfg4.win 4).blk t).view.emb j)
  refine reduce2_block 320000 4000 512 32 32 _ _ _ _ _ _ _ _ _ j ?_ (fun k => ?_) (fun k => ?_) ?_
  · show V c main_arg2 (((cfg4.win 3).blk t).view.emb j) = V c main_arg2 (((cfg4.win 4).blk t).view.emb j)
    refine congrArg (V c main_arg2) (funext fun a => Fin.ext ?_)
    match a with
    | ⟨0, _⟩ => show win4_3.index t (0 : Fin 2) * 4000 + 1 * (j 0).val = win4_4.index t (0 : Fin 2) * 4000 + 1 * (j 0).val; omega
    | ⟨1, _⟩ => show win4_3.index t (1 : Fin 2) * 32 + 1 * (j 1).val = win4_4.index t (1 : Fin 2) * 32 + 1 * (j 1).val; omega
  · show V c main_v3 (((cfg4.win 0).blk t).view.emb (ix2 (j 0) k)) = V c main_v3 (ix2 ((((cfg4.win 4).blk t).view.emb j) 0) k)
    refine congrArg (V c main_v3) (funext fun a => Fin.ext ?_)
    match a with
    | ⟨0, _⟩ => show win4_0.index t (0 : Fin 2) * 4000 + 1 * (j 0).val = win4_4.index t (0 : Fin 2) * 4000 + 1 * (j 0).val; omega
    | ⟨1, _⟩ => show win4_0.index t (1 : Fin 2) * 512 + 1 * k.val = k.val; omega
  · show V c main_arg15 (((cfg4.win 1).blk t).view.emb (ix2 k (j 1))) = V c main_arg15 (ix2 k ((((cfg4.win 4).blk t).view.emb j) 1))
    refine congrArg (V c main_arg15) (funext fun a => Fin.ext ?_)
    match a with
    | ⟨0, _⟩ => show win4_1.index t (0 : Fin 2) * 512 + 1 * k.val = k.val; omega
    | ⟨1, _⟩ => show win4_1.index t (1 : Fin 2) * 32 + 1 * (j 1).val = win4_4.index t (1 : Fin 2) * 32 + 1 * (j 1).val; omega
  · show V c main_v37 (((cfg4.win 2).blk t).view.emb (ix2 0 (j 1))) = V c main_v37 (ix2 0 ((((cfg4.win 4).blk t).view.emb j) 1))
    refine congrArg (V c main_v37) (funext fun a => Fin.ext ?_)
    match a with
    | ⟨0, _⟩ => show win4_2.index t (0 : Fin 2) * 1 + 1 * 0 = 0; omega
    | ⟨1, _⟩ => show win4_2.index t (1 : Fin 2) * 32 + 1 * (j 1).val = win4_4.index t (1 : Fin 2) * 32 + 1 * (j 1).val; omega

/-- An index of the array is in point `t`'s block iff each coordinate is in the block's range on its axis. -/
theorem mem_blk4 (t : Fin cfg4.N) (i : S320000x32.Idx) :
    i ∈ ((cfg4.win 4).blk t).view.set ↔ ∀ a : Fin 2, win4_4.index t a * S4000x32.size a ≤ (i a).val ∧ (i a).val < win4_4.index t a * S4000x32.size a + S4000x32.size a := by
  show i ∈ ((View.whole main_v38).slice (win4_4.rect t)).set ↔ _
  rw [View.set_slice_whole, Rect.mem_set_unit]
  exact Iff.rfl

/-- Every index of the array lies in the block of the point its row falls in. -/
theorem cover4 (i : S320000x32.Idx) : ∃ t : Fin cfg4.N, (cfg4.win 4).flush t = true ∧ i ∈ ((cfg4.win 4).blk t).view.set := by
  have hi0 : (i 0).val < 320000 := (i 0).isLt
  have hi1 : (i 1).val < 32 := (i 1).isLt
  have hN : cfg4.N = 80 := N_4
  let t : Fin cfg4.N := ⟨(i 0).val / 4000, by rw [hN]; omega⟩
  obtain ⟨e00, e01, e10, e11, e20, e21, e30, e31, e40, e41⟩ := idx4 t
  refine ⟨t, flush4_4 t, ?_⟩
  rw [mem_blk4]
  intro a
  match a with
  | ⟨0, _⟩ => show win4_4.index t (0 : Fin 2) * 4000 ≤ (i 0).val ∧ (i 0).val < win4_4.index t (0 : Fin 2) * 4000 + 4000
              rw [e40]; show (i 0).val / 4000 * 4000 ≤ (i 0).val ∧ (i 0).val < (i 0).val / 4000 * 4000 + 4000; omega
  | ⟨1, _⟩ => show win4_4.index t (1 : Fin 2) * 32 ≤ (i 1).val ∧ (i 1).val < win4_4.index t (1 : Fin 2) * 32 + 32
              rw [e41]; omega

/-- The output array after the launch. -/
theorem region4_out (c : Dev nD) : (dat4 V c).arrAt 4 cfg4.N = G4 V c :=
  (dat4 V c).arrAt_eq_of_cover 4 (G4 V c) (fun t _ => flushed4 V c t) (cover4)

end Cert.KernelIdeal.Hand

end
-- ==== Proof.Region5.lean ====
/-
  What a reducing dense layer's launch leaves in its output array: grid point `t` writes back the `t`-th block of rows of
  `R + celu (X · W + b)`, where `X`, `W`, the one-row bias `b` and the residual `R` are the arrays the launch finds; the row
  blocks tile the array, so it ends holding that function whole.
-/
import proofs.«174336_j34986803593905_1_alg».proof.Proof.Gen.KernelIdeal.Frame
import proofs.«174336_j34986803593905_1_alg».proof.Proof.Ops
import proofs.«174336_j34986803593905_1_alg».proof.Proof.Resid
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

theorem hz5 : (![0, 0] : Fin 2 → Nat) = fun _ => 0 := funext fun a => by fin_cases a <;> rfl

/-- The body's one stored value is the residual block plus `celu` of the dense layer of the other three loaded blocks. -/
theorem pay5 (x : Vec Ideal S2000x512 .f32) (w : Vec Ideal S512x3 .f32) (b : Vec Ideal S1x3 .f32) (res : Vec Ideal S2000x3 .f32) :
    k5_pay1 (F := Ideal) x w b res = reduce2 2000 512 3 res x w b := by
  unfold k5_pay1
  have h : lin2 2000 512 3 (shapeCast S2000x512 x shapeCasts_S2000x512_S2000x512) w b = lin2 2000 512 3 x w b := by
    rw [shapeCast_self]
  exact congrArg (addf res) ((celu_select _).trans (funext fun i => congrArg celu (congrFun ((lin_block 2000 512 3 _ _ _ _ _ w b).trans h) i)))

/-- The function the output array ends holding. -/
abbrev G5 (c : Dev nD) : S20000x3.Idx → EReal :=
  reduce2 20000 512 3 (V c main_arg1) (V c main_v5) (V c main_arg17) (V c main_v39)

/-- The printed index maps over the grid: the row-blocked windows sit at block `t`, the others at block `0`. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

/-- What point `t` writes back is block `t` of `G5`. -/
theorem flushed5 (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4]
  unfold out5_4
  rw [View.canon_unit_zero hz5]
  simp only [View.ld_unit_zero (S := S2000x512) hz5, View.ld_unit_zero (S := S512x3) hz5, View.ld_unit_zero (S := S1x3) hz5,
    View.ld_unit_zero (S := S2000x3) hz5]
  rw [pay5]
  obtain ⟨e00, e01, e10, e11, e20, e21, e30, e31, e40, e41⟩ := idx5 t
  funext j
  have hj0 : (j 0).val < 2000 := (j 0).isLt
  have hj1 : (j 1).val < 3 := (j 1).isLt
  show reduce2 2000 512 3 (iblk5 V c 3 t) (iblk5 V c 0 t) (iblk5 V c 1 t) (iblk5 V c 2 t) j
      = reduce2 20000 512 3 (V c main_arg1) (V c main_v5) (V c main_arg17) (V c main_v39) (((cfg5.win 4).blk t).view.emb j)
  refine reduce2_block 20000 2000 512 3 3 _ _ _ _ _ _ _ _ _ j ?_ (fun k => ?_) (fun k => ?_) ?_
  · show V c main_arg1 (((cfg5.win 3).blk t).view.emb j) = V c main_arg1 (((cfg5.win 4).blk t).view.emb j)
    refine congrArg (V c main_arg1) (funext fun a => Fin.ext ?_)
    match a with
    | ⟨0, _⟩ => show win5_3.index t (0 : Fin 2) * 2000 + 1 * (j 0).val = win5_4.index t (0 : Fin 2) * 2000 + 1 * (j 0).val; omega
    | ⟨1, _⟩ => show win5_3.index t (1 : Fin 2) * 3 + 1 * (j 1).val = win5_4.index t (1 : Fin 2) * 3 + 1 * (j 1).val; omega
  · show V c main_v5 (((cfg5.win 0).blk t).view.emb (ix2 (j 0) k)) = V c main_v5 (ix2 ((((cfg5.win 4).blk t).view.emb j) 0) k)
    refine congrArg (V c main_v5) (funext fun a => Fin.ext ?_)
    match a with
    | ⟨0, _⟩ => show win5_0.index t (0 : Fin 2) * 2000 + 1 * (j 0).val = win5_4.index t (0 : Fin 2) * 2000 + 1 * (j 0).val; omega
    | ⟨1, _⟩ => show win5_0.index t (1 : Fin 2) * 512 + 1 * k.val = k.val; omega
  · show V c main_arg17 (((cfg5.win 1).blk t).view.emb (ix2 k (j 1))) = V c main_arg17 (ix2 k ((((cfg5.win 4).blk t).view.emb j) 1))
    refine congrArg (V c main_arg17) (funext fun a => Fin.ext ?_)
    match a with
    | ⟨0, _⟩ => show win5_1.index t (0 : Fin 2) * 512 + 1 * k.val = k.val; omega
    | ⟨1, _⟩ => show win5_1.index t (1 : Fin 2) * 3 + 1 * (j 1).val = win5_4.index t (1 : Fin 2) * 3 + 1 * (j 1).val; omega
  · show V c main_v39 (((cfg5.win 2).blk t).view.emb (ix2 0 (j 1))) = V c main_v39 (ix2 0 ((((cfg5.win 4).blk t).view.emb j) 1))
    refine congrArg (V c main_v39) (funext fun a => Fin.ext ?_)
    match a with
    | ⟨0, _⟩ => show win5_2.index t (0 : Fin 2) * 1 + 1 * 0 = 0; omega
    | ⟨1, _⟩ => show win5_2.index t (1 : Fin 2) * 3 + 1 * (j 1).val = win5_4.index t (1 : Fin 2) * 3 + 1 * (j 1).val; omega

/-- An index of the array is in point `t`'s block iff each coordinate is in the block's range on its axis. -/
theorem mem_blk5 (t : Fin cfg5.N) (i : S20000x3.Idx) :
    i ∈ ((cfg5.win 4).blk t).view.set ↔ ∀ a : Fin 2, win5_4.index t a * S2000x3.size a ≤ (i a).val ∧ (i a).val < win5_4.index t a * S2000x3.size a + S2000x3.size a := by
  show i ∈ ((View.whole main_v40).slice (win5_4.rect t)).set ↔ _
  rw [View.set_slice_whole, Rect.mem_set_unit]
  exact Iff.rfl

/-- Every index of the array lies in the block of the point its row falls in. -/
theorem cover5 (i : S20000x3.Idx) : ∃ t : Fin cfg5.N, (cfg5.win 4).flush t = true ∧ i ∈ ((cfg5.win 4).blk t).view.set := by
  have hi0 : (i 0).val < 20000 := (i 0).isLt
  have hi1 : (i 1).val < 3 := (i 1).isLt
  have hN : cfg5.N = 10 := N_5
  let t : Fin cfg5.N := ⟨(i 0).val / 2000, by rw [hN]; omega⟩
  obtain ⟨e00, e01, e10, e11, e20, e21, e30, e31, e40, e41⟩ := idx5 t
  refine ⟨t, flush5_4 t, ?_⟩
  rw [mem_blk5]
  intro a
  match a with
  | ⟨0, _⟩ => show win5_4.index t (0 : Fin 2) * 2000 ≤ (i 0).val ∧ (i 0).val < win5_4.index t (0 : Fin 2) * 2000 + 2000
              rw [e40]; show (i 0).val / 2000 * 2000 ≤ (i 0).val ∧ (i 0).val < (i 0).val / 2000 * 2000 + 2000; omega
  | ⟨1, _⟩ => show win5_4.index t (1 : Fin 2) * 3 ≤ (i 1).val ∧ (i 1).val < win5_4.index t (1 : Fin 2) * 3 + 3
              rw [e41]; omega

/-- The output array after the launch. -/
theorem region5_out (c : Dev nD) : (dat5 V c).arrAt 4 cfg5.N = G5 V c :=
  (dat5 V c).arrAt_eq_of_cover 4 (G5 V c) (fun t _ => flushed5 V c t) (cover5)

end Cert.KernelIdeal.Hand

end
-- ==== Proof.Net.lean ====
/-
  The network both programs compute, as functions of plain arrays over the extended reals.

  `expand` is a dense layer followed by CELU; `reduce` adds that onto a residual. The node output `netH` runs the edge
  messages' aggregation `agg` (a gather of the expanded coordinates and node features along the edges, their product with the
  expanded edge features, and a scatter-sum onto the destination nodes: the same host operations in both programs, taken here
  as a parameter) through two dense layers; the coordinate and edge outputs `netC`, `netE` each reduce one expansion.
-/
import proofs.«174336_j34986803593905_1_alg».proof.Proof.Spec

noncomputable section

namespace Cert.Spec

open Idealize.ShloMosaic

/-- A dense layer followed by CELU. -/
def expand (M K N : ℕ) (X : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => celu (lin M K N X W b i)

/-- A residual plus a dense layer followed by CELU. -/
def reduce (M K N : ℕ) (R : (⟨2, ![M, N]⟩ : Shape).Idx → EReal) (X : (⟨2, ![M, K]⟩ : Shape).Idx → EReal)
    (W : (⟨2, ![K, N]⟩ : Shape).Idx → EReal) (b : (⟨1, ![N]⟩ : Shape).Idx → EReal) : (⟨2, ![M, N]⟩ : Shape).Idx → EReal :=
  fun i => R i + celu (lin M K N X W b i)

/-- The type of the aggregation of edge messages: expanded coordinates, expanded node features, expanded edge features, the
    edges' source and destination nodes ↦ the per-node sums. -/
abbrev Agg : Type :=
  ((⟨2, ![20000, 512]⟩ : Shape).Idx → EReal) → ((⟨2, ![20000, 512]⟩ : Shape).Idx → EReal) → ((⟨2, ![320000, 512]⟩ : Shape).Idx → EReal)
    → ((⟨1, ![320000]⟩ : Shape).Idx → BitVec 32) → ((⟨1, ![320000]⟩ : Shape).Idx → BitVec 32) → ((⟨2, ![20000, 512]⟩ : Shape).Idx → EReal)

/-- The node output. -/
def netH (agg : Agg)
    (hf : (⟨2, ![20000, 128]⟩ : Shape).Idx → EReal) (cf : (⟨2, ![20000, 3]⟩ : Shape).Idx → EReal) (ef : (⟨2, ![320000, 32]⟩ : Shape).Idx → EReal)
    (src dst : (⟨1, ![320000]⟩ : Shape).Idx → BitVec 32)
    (Wn : (⟨2, ![128, 512]⟩ : Shape).Idx → EReal) (bn : (⟨1, ![512]⟩ : Shape).Idx → EReal)
    (We : (⟨2, ![32, 512]⟩ : Shape).Idx → EReal) (be : (⟨1, ![512]⟩ : Shape).Idx → EReal)
    (Wc : (⟨2, ![3, 512]⟩ : Shape).Idx → EReal) (bc : (⟨1, ![512]⟩ : Shape).Idx → EReal)
    (Wn1 : (⟨2, ![512, 512]⟩ : Shape).Idx → EReal) (bn1 : (⟨1, ![512]⟩ : Shape).Idx → EReal)
    (Wn2 : (⟨2, ![512, 128]⟩ : Shape).Idx → EReal) (bn2 : (⟨1, ![128]⟩ : Shape).Idx → EReal) :
    (⟨2, ![20000, 128]⟩ : Shape).Idx → EReal :=
  reduce 20000 512 128 hf
    (expand 20000 512 512
      (agg (expand 20000 3 512 cf Wc bc) (expand 20000 128 512 hf Wn bn) (expand 320000 32 512 ef We be) src dst) Wn1 bn1)
    Wn2 bn2

/-- The coordinate output. -/
def netC (cf : (⟨2, ![20000, 3]⟩ : Shape).Idx → EReal) (Wc : (⟨2, ![3, 512]⟩ : Shape).Idx → EReal) (bc : (⟨1, ![512]⟩ : Shape).Idx → EReal)
    (Wco : (⟨2, ![512, 3]⟩ : Shape).Idx → EReal) (bco : (⟨1, ![3]⟩ : Shape).Idx → EReal) : (⟨2, ![20000, 3]⟩ : Shape).Idx → EReal :=
  reduce 20000 512 3 cf (expand 20000 3 512 cf Wc bc) Wco bco

/-- The edge output. -/
def netE (ef : (⟨2, ![320000, 32]⟩ : Shape).Idx → EReal) (We : (⟨2, ![32, 512]⟩ : Shape).Idx → EReal) (be : (⟨1, ![512]⟩ : Shape).Idx → EReal)
    (Weo : (⟨2, ![512, 32]⟩ : Shape).Idx → EReal) (beo : (⟨1, ![32]⟩ : Shape).Idx → EReal) : (⟨2, ![320000, 32]⟩ : Shape).Idx → EReal :=
  reduce 320000 512 32 ef (expand 320000 32 512 ef We be) Weo beo

end Cert.Spec

end
-- ==== Proof.Congr.lean ====
/-
  A layer whose bias is held as a one-row matrix is the layer over the bias vector that row spells, and a layer of equal
  operands is an equal layer.
-/
import proofs.«174336_j34986803593905_1_alg».proof.Proof.Resid
import proofs.«174336_j34986803593905_1_alg».proof.Proof.Net

noncomputable section

namespace Cert.Spec

open Idealize.ShloMosaic Idealize.ShloMosaic.ValueIdx

theorem expand2_congr (M K N : ℕ) {X X' : (⟨2, ![M, K]⟩ : Shape).Idx → EReal} {W W' : (⟨2, ![K, N]⟩ : Shape).Idx → EReal}
    {b2 : (⟨2, ![1, N]⟩ : Shape).Idx → EReal} {b : (⟨1, ![N]⟩ : Shape).Idx → EReal}
    (hX : X = X') (hW : W = W') (hb : ∀ j : Fin N, b2 (ix2 0 j) = b (ix1 j)) :
    expand2 M K N X W b2 = expand M K N X' W' b := by
  subst hX hW
  unfold expand2 expand
  rw [lin2_row M K N X W b b2 hb]

theorem reduce2_congr (M K N : ℕ) {R R' : (⟨2, ![M, N]⟩ : Shape).Idx → EReal} {X X' : (⟨2, ![M, K]⟩ : Shape).Idx → EReal}
    {W W' : (⟨2, ![K, N]⟩ : Shape).Idx → EReal} {b2 : (⟨2, ![1, N]⟩ : Shape).Idx → EReal} {b : (⟨1, ![N]⟩ : Shape).Idx → EReal}
    (hR : R = R') (hX : X = X') (hW : W = W') (hb : ∀ j : Fin N, b2 (ix2 0 j) = b (ix1 j)) :
    reduce2 M K N R X W b2 = reduce M K N R' X' W' b := by
  subst hR hX hW
  unfold reduce2 reduce
  rw [lin2_row M K N X W b b2 hb]

end Cert.Spec

end
-- ==== Proof.AggK.lean ====
/-
  The aggregation of edge messages as `KernelIdeal`'s host operations spell it: the edges' node numbers normalised (a negative one
  moved up by the node count), the expanded coordinates gathered at both ends and the expanded node features at the source,
  `|c_dst - c_src| · (h_src · e)`, scatter-summed onto the destination nodes from zero.
-/
import proofs.«174336_j34986803593905_1_alg».proof.Proof.Gen.KernelIdeal
import Idealize.ShloMosaic.PureOps.Ideal

noncomputable section

namespace Cert.KernelIdeal.Hand

open Idealize.ShloMosaic Cert.KernelIdeal Cert.KernelIdeal.Facts₀

/-- An edge end's node numbers as a column of gather positions. -/
def nodeCol (x : IVec S320000 32) : IVec S320000x1 32 :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 20000#32))) x)

/-- The per-node sums of the edge messages. -/
def agg (cc h : FVec Ideal S20000x512 .f32) (e : FVec Ideal S320000x512 .f32) (src dst : IVec S320000 32) : FVec Ideal S20000x512 .f32 :=
  Host.scatterAdd scatter_S20000x512_S320000x1_S320000x512_1_0_0_1
    (broadcastInDim S20000x512 ![] bcast_S_S20000x512 (constant (F := Ideal) S_ .f32 0x00000000#32))
    (broadcastInDim S320000x1 ![0] bcast_S320000_S320000x1_0 dst)
    (mulf (Host.absf (subf (Host.gather gather_S20000x512_S320000x1_S320000x512_1_0_n_n_0_1_1512 cc (nodeCol dst))
        (Host.gather gather_S20000x512_S320000x1_S320000x512_1_0_n_n_0_1_1512 cc (nodeCol src))))
      (mulf (Host.gather gather_S20000x512_S320000x1_S320000x512_1_0_n_n_0_1_1512 h (nodeCol src)) e))

end Cert.KernelIdeal.Hand

end
-- ==== Proof.Values.lean ====
/-
  The contents of the buffers the results depend on, at the boundaries between @main's host stretches and its launches, as
  functions of the launch memory: a reshaped bias is a one-row matrix spelling the bias vector; each expanding launch leaves
  `expand` of its operands, the long host stretch the aggregation of the edge messages, and the three last launches the three
  results `netH`, `netE`, `netC`, which nothing after them writes.
-/
import proofs.«174336_j34986803593905_1_alg».proof.Proof.Keep
import proofs.«174336_j34986803593905_1_alg».proof.Proof.Region0
import proofs.«174336_j34986803593905_1_alg».proof.Proof.Region1
import proofs.«174336_j34986803593905_1_alg».proof.Proof.Region2
import proofs.«174336_j34986803593905_1_alg».proof.Proof.Region3
import proofs.«174336_j34986803593905_1_alg».proof.Proof.Region4
import proofs.«174336_j34986803593905_1_alg».proof.Proof.Region5
import proofs.«174336_j34986803593905_1_alg».proof.Proof.Congr
import proofs.«174336_j34986803593905_1_alg».proof.Proof.AggK
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.Spec

variable (m : (ℓ : Loc nD τ sig) → Buf (Elt Ideal) ℓ) (ρ : Dev nD → PrngReg)

/-! ## The reshaped biases -/

theorem bias0 (c : Dev nD) (j : Fin 512) :
    (W1 m ρ c (Proc.devRef .tc main_v0) : S1x512.Idx → EReal) (ix2 0 j) = (m ((c.tc : Thread nD τ).loc main_arg6)) (ix1 j) := by
  have e : W1 m ρ c (Proc.devRef .tc main_v0) = shapeCast S1x512 (W0 m ρ c (Proc.devRef .tc main_arg6)) shapeCasts_S512_S1x512 := by
    show StableHlo.after hostOps0 (W0 m ρ c) (Proc.devRef .tc main_v0) = _
    after_results; rfl
  rw [e]; exact shapeCast_a_1a_apply _ _ 0 j

theorem bias1 (c : Dev nD) (j : Fin 512) :
    (W3 m ρ c (Proc.devRef .tc main_v2) : S1x512.Idx → EReal) (ix2 0 j) = (m ((c.tc : Thread nD τ).loc main_arg8)) (ix1 j) := by
  have e : W3 m ρ c (Proc.devRef .tc main_v2) = shapeCast S1x512 (W2 m ρ c (Proc.devRef .tc main_arg8)) shapeCasts_S512_S1x512 := by
    show StableHlo.after hostOps1 (W2 m ρ c) (Proc.devRef .tc main_v2) = _
    after_results; rfl
  rw [e, at2 m ρ c main_arg8 (by decide)]; exact shapeCast_a_1a_apply _ _ 0 j

theorem bias2 (c : Dev nD) (j : Fin 512) :
    (W5 m ρ c (Proc.devRef .tc main_v4) : S1x512.Idx → EReal) (ix2 0 j) = (m ((c.tc : Thread nD τ).loc main_arg10)) (ix1 j) := by
  have e : W5 m ρ c (Proc.devRef .tc main_v4) = shapeCast S1x512 (W4 m ρ c (Proc.devRef .tc main_arg10)) shapeCasts_S512_S1x512 := by
    show StableHlo.after hostOps2 (W4 m ρ c) (Proc.devRef .tc main_v4) = _
    after_results; rfl
  rw [e, at4 m ρ c main_arg10 (by decide)]; exact shapeCast_a_1a_apply _ _ 0 j

theorem bias3a (c : Dev nD) (j : Fin 512) :
    (W7 m ρ c (Proc.devRef .tc main_v34) : S1x512.Idx → EReal) (ix2 0 j) = (m ((c.tc : Thread nD τ).loc main_arg12)) (ix1 j) := by
  have e : W7 m ρ c (Proc.devRef .tc main_v34) = shapeCast S1x512 (W6 m ρ c (Proc.devRef .tc main_arg12)) shapeCasts_S512_S1x512 := by
    show StableHlo.after hostOps3 (W6 m ρ c) (Proc.devRef .tc main_v34) = _
    after_results_simp; rfl
  rw [e, at6 m ρ c main_arg12 (by decide)]; exact shapeCast_a_1a_apply _ _ 0 j

theorem bias3b (c : Dev nD) (j : Fin 128) :
    (W7 m ρ c (Proc.devRef .tc main_v35) : S1x128.Idx → EReal) (ix2 0 j) = (m ((c.tc : Thread nD τ).loc main_arg14)) (ix1 j) := by
  have e : W7 m ρ c (Proc.devRef .tc main_v35) = shapeCast S1x128 (W6 m ρ c (Proc.devRef .tc main_arg14)) shapeCasts_S128_S1x128 := by
    show StableHlo.after hostOps3 (W6 m ρ c) (Proc.devRef .tc main_v35) = _
    after_results_simp; rfl
  rw [e, at6 m ρ c main_arg14 (by decide)]; exact shapeCast_a_1a_apply _ _ 0 j

theorem bias4 (c : Dev nD) (j : Fin 32) :
    (W9 m ρ c (Proc.devRef .tc main_v37) : S1x32.Idx → EReal) (ix2 0 j) = (m ((c.tc : Thread nD τ).loc main_arg16)) (ix1 j) := by
  have e : W9 m ρ c (Proc.devRef .tc main_v37) = shapeCast S1x32 (W8 m ρ c (Proc.devRef .tc main_arg16)) shapeCasts_S32_S1x32 := by
    show StableHlo.after hostOps4 (W8 m ρ c) (Proc.devRef .tc main_v37) = _
    after_results; rfl
  rw [e, at8 m ρ c main_arg16 (by decide)]; exact shapeCast_a_1a_apply _ _ 0 j

theorem bias5 (c : Dev nD) (j : Fin 3) :
    (W11 m ρ c (Proc.devRef .tc main_v39) : S1x3.Idx → EReal) (ix2 0 j) = (m ((c.tc : Thread nD τ).loc main_arg18)) (ix1 j) := by
  have e : W11 m ρ c (Proc.devRef .tc main_v39) = shapeCast S1x3 (W10 m ρ c (Proc.devRef .tc main_arg18)) shapeCasts_S3_S1x3 := by
    show StableHlo.after hostOps5 (W10 m ρ c) (Proc.devRef .tc main_v39) = _
    after_results; rfl
  rw [e, at10 m ρ c main_arg18 (by decide)]; exact shapeCast_a_1a_apply _ _ 0 j

/-! ## The three expansions -/

/-- The expanded node features, where the first launch leaves them. -/
theorem hVal (c : Dev nD) :
    W2 m ρ c (Proc.devRef .tc main_v1) = expand 20000 128 512 (m ((c.tc : Thread nD τ).loc main_arg0)) (m ((c.tc : Thread nD τ).loc main_arg5)) (m ((c.tc : Thread nD τ).loc main_arg6)) :=
  (W2_arr m ρ c 3).trans ((region0_out (V1 m ρ) c).trans
    (expand2_congr 20000 128 512 (at1 m ρ c main_arg0 (by decide)) (at1 m ρ c main_arg5 (by decide)) (bias0 m ρ c)))

/-- The expanded edge features, where the second launch leaves them. -/
theorem eVal (c : Dev nD) :
    W4 m ρ c (Proc.devRef .tc main_v3) = expand 320000 32 512 (m ((c.tc : Thread nD τ).loc main_arg2)) (m ((c.tc : Thread nD τ).loc main_arg7)) (m ((c.tc : Thread nD τ).loc main_arg8)) :=
  (W4_arr m ρ c 3).trans ((region1_out (V3 m ρ) c).trans
    (expand2_congr 320000 32 512 (at3 m ρ c main_arg2 (by decide)) (at3 m ρ c main_arg7 (by decide)) (bias1 m ρ c)))

/-- The expanded coordinates, where the third launch leaves them. -/
theorem cVal (c : Dev nD) :
    W6 m ρ c (Proc.devRef .tc main_v5) = expand 20000 3 512 (m ((c.tc : Thread nD τ).loc main_arg1)) (m ((c.tc : Thread nD τ).loc main_arg9)) (m ((c.tc : Thread nD τ).loc main_arg10)) :=
  (W6_arr m ρ c 3).trans ((region2_out (V5 m ρ) c).trans
    (expand2_congr 20000 3 512 (at5 m ρ c main_arg1 (by decide)) (at5 m ρ c main_arg9 (by decide)) (bias2 m ρ c)))

/-- The expanded node features are still there when the long host stretch starts. -/
theorem hVal6 (c : Dev nD) :
    W6 m ρ c (Proc.devRef .tc main_v1) = expand 20000 128 512 (m ((c.tc : Thread nD τ).loc main_arg0)) (m ((c.tc : Thread nD τ).loc main_arg5)) (m ((c.tc : Thread nD τ).loc main_arg6)) :=
  (keep6 m ρ c main_v1 (by decide)).trans ((keep5 m ρ c main_v1 (by decide)).trans ((keep4 m ρ c main_v1 (by decide)).trans
    ((keep3 m ρ c main_v1 (by decide)).trans (hVal m ρ c))))

/-- And so are the expanded edge features. -/
theorem eVal6 (c : Dev nD) :
    W6 m ρ c (Proc.devRef .tc main_v3) = expand 320000 32 512 (m ((c.tc : Thread nD τ).loc main_arg2)) (m ((c.tc : Thread nD τ).loc main_arg7)) (m ((c.tc : Thread nD τ).loc main_arg8)) :=
  (keep6 m ρ c main_v3 (by decide)).trans ((keep5 m ρ c main_v3 (by decide)).trans (eVal m ρ c))

/-! ## The aggregation -/

/-- The long host stretch leaves the per-node sums of the edge messages. -/
theorem aggVal (c : Dev nD) :
    W7 m ρ c (Proc.devRef .tc main_v33) = agg (expand 20000 3 512 (m ((c.tc : Thread nD τ).loc main_arg1)) (m ((c.tc : Thread nD τ).loc main_arg9)) (m ((c.tc : Thread nD τ).loc main_arg10)))
      (expand 20000 128 512 (m ((c.tc : Thread nD τ).loc main_arg0)) (m ((c.tc : Thread nD τ).loc main_arg5)) (m ((c.tc : Thread nD τ).loc main_arg6))) (expand 320000 32 512 (m ((c.tc : Thread nD τ).loc main_arg2)) (m ((c.tc : Thread nD τ).loc main_arg7)) (m ((c.tc : Thread nD τ).loc main_arg8)))
      (m ((c.tc : Thread nD τ).loc main_arg3)) (m ((c.tc : Thread nD τ).loc main_arg4)) := by
  have e : W7 m ρ c (Proc.devRef .tc main_v33) = agg (W6 m ρ c (Proc.devRef .tc main_v5)) (W6 m ρ c (Proc.devRef .tc main_v1)) (W6 m ρ c (Proc.devRef .tc main_v3))
      (W6 m ρ c (Proc.devRef .tc main_arg3)) (W6 m ρ c (Proc.devRef .tc main_arg4)) := by
    show StableHlo.after hostOps3 (W6 m ρ c) (Proc.devRef .tc main_v33) = _
    after_results_simp; rfl
  rw [e, cVal, hVal6, eVal6, at6 m ρ c main_arg3 (by decide), at6 m ρ c main_arg4 (by decide)]

/-! ## The three results -/

/-- The node output, where the fourth launch leaves it. -/
theorem houtVal8 (c : Dev nD) :
    W8 m ρ c (Proc.devRef .tc main_v36) = netH agg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) (m ((c.tc : Thread nD τ).loc main_arg14)) :=
  (W8_arr m ρ c 6).trans ((region3_out (V7 m ρ) c).trans
    (reduce2_congr 20000 512 128 (at7 m ρ c main_arg0 (by decide))
      (expand2_congr 20000 512 512 (aggVal m ρ c) (at7 m ρ c main_arg11 (by decide)) (bias3a m ρ c))
      (at7 m ρ c main_arg13 (by decide)) (bias3b m ρ c)))

/-- The edge output, where the fifth launch leaves it. -/
theorem eoutVal10 (c : Dev nD) :
    W10 m ρ c (Proc.devRef .tc main_v38) = netE (m ((c.tc : Thread nD τ).loc main_arg2)) (m ((c.tc : Thread nD τ).loc main_arg7)) (m ((c.tc : Thread nD τ).loc main_arg8)) (m ((c.tc : Thread nD τ).loc main_arg15)) (m ((c.tc : Thread nD τ).loc main_arg16)) :=
  (W10_arr m ρ c 4).trans ((region4_out (V9 m ρ) c).trans
    (reduce2_congr 320000 512 32 (at9 m ρ c main_arg2 (by decide))
      ((keep9 m ρ c main_v3 (by decide)).trans ((keep8 m ρ c main_v3 (by decide)).trans ((keep7 m ρ c main_v3 (by decide)).trans (eVal6 m ρ c))))
      (at9 m ρ c main_arg15 (by decide)) (bias4 m ρ c)))

/-- The coordinate output, where the sixth launch leaves it. -/
theorem coutVal (c : Dev nD) :
    W12 m ρ c (Proc.devRef .tc main_v40) = netC (m ((c.tc : Thread nD τ).loc main_arg1)) (m ((c.tc : Thread nD τ).loc main_arg9)) (m ((c.tc : Thread nD τ).loc main_arg10)) (m ((c.tc : Thread nD τ).loc main_arg17)) (m ((c.tc : Thread nD τ).loc main_arg18)) :=
  (W12_arr m ρ c 4).trans ((region5_out (V11 m ρ) c).trans
    (reduce2_congr 20000 512 3 (at11 m ρ c main_arg1 (by decide))
      ((keep11 m ρ c main_v5 (by decide)).trans ((keep10 m ρ c main_v5 (by decide)).trans ((keep9 m ρ c main_v5 (by decide)).trans
        ((keep8 m ρ c main_v5 (by decide)).trans ((keep7 m ρ c main_v5 (by decide)).trans (cVal m ρ c))))))
      (at11 m ρ c main_arg17 (by decide)) (bias5 m ρ c)))

/-- The node output at @main's return. -/
theorem houtVal (c : Dev nD) :
    W12 m ρ c (Proc.devRef .tc main_v36) = netH agg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) (m ((c.tc : Thread nD τ).loc main_arg14)) :=
  (keep12 m ρ c main_v36 (by decide)).trans ((keep11 m ρ c main_v36 (by decide)).trans ((keep10 m ρ c main_v36 (by decide)).trans
    ((keep9 m ρ c main_v36 (by decide)).trans (houtVal8 m ρ c))))

/-- The edge output at @main's return. -/
theorem eoutVal (c : Dev nD) :
    W12 m ρ c (Proc.devRef .tc main_v38) = netE (m ((c.tc : Thread nD τ).loc main_arg2)) (m ((c.tc : Thread nD τ).loc main_arg7)) (m ((c.tc : Thread nD τ).loc main_arg8)) (m ((c.tc : Thread nD τ).loc main_arg15)) (m ((c.tc : Thread nD τ).loc main_arg16)) :=
  (keep12 m ρ c main_v38 (by decide)).trans ((keep11 m ρ c main_v38 (by decide)).trans (eoutVal10 m ρ c))

end Cert.KernelIdeal.Hand

end
-- ==== Proof.HostOps.lean ====
/-
  The reference's host operations read as the functions of Net.lean: a `dot_general` plus its twice-broadcast bias, run
  through CELU in the max/min spelling, is `expand`; added onto a residual it is `reduce`.
-/
import proofs.«174336_j34986803593905_1_alg».proof.Proof.Ops
import proofs.«174336_j34986803593905_1_alg».proof.Proof.Net

noncomputable section

namespace Cert.Spec

open Idealize.ShloMosaic Idealize.ShloMosaic.ValueIdx

/-- A host dense layer followed by CELU in the max/min spelling. -/
theorem expand_host (M K N : ℕ) (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1]) (h2 : (⟨2, ![1, N]⟩ : Shape).BroadcastsInDim ⟨2, ![M, N]⟩ ![0, 1])
    (hb : (⟨0, ![]⟩ : Shape).BroadcastsInDim ⟨2, ![M, N]⟩ ![])
    (X : FVec Ideal ⟨2, ![M, K]⟩ .f32) (W : FVec Ideal ⟨2, ![K, N]⟩ .f32) (b : FVec Ideal ⟨1, ![N]⟩ .f32) :
    addf (maximumf (addf (Host.dotGeneral d none X W) (broadcastInDim ⟨2, ![M, N]⟩ ![0, 1] h2 (broadcastInDim ⟨2, ![1, N]⟩ ![1] h1 b)))
          (broadcastInDim ⟨2, ![M, N]⟩ ![] hb (constant (F := Ideal) ⟨0, ![]⟩ .f32 0x00000000#32)))
        (mulf (broadcastInDim ⟨2, ![M, N]⟩ ![] hb (constant (F := Ideal) ⟨0, ![]⟩ .f32 0x3F800000#32))
          (Host.expm1 (Host.divf
            (minimumf (addf (Host.dotGeneral d none X W) (broadcastInDim ⟨2, ![M, N]⟩ ![0, 1] h2 (broadcastInDim ⟨2, ![1, N]⟩ ![1] h1 b)))
              (broadcastInDim ⟨2, ![M, N]⟩ ![] hb (constant (F := Ideal) ⟨0, ![]⟩ .f32 0x00000000#32)))
            (broadcastInDim ⟨2, ![M, N]⟩ ![] hb (constant (F := Ideal) ⟨0, ![]⟩ .f32 0x3F800000#32)))))
      = expand M K N X W b := by
  subst hd
  rw [lin_host]
  exact celu_maxmin hb _

/-- The same added onto a residual. -/
theorem reduce_host (M K N : ℕ) (d : DotDims ⟨2, ![M, K]⟩ ⟨2, ![K, N]⟩ ⟨2, ![M, N]⟩) (hd : d = DotDims.plain M K N)
    (h1 : (⟨1, ![N]⟩ : Shape).BroadcastsInDim ⟨2, ![1, N]⟩ ![1]) (h2 : (⟨2, ![1, N]⟩ : Shape).BroadcastsInDim ⟨2, ![M, N]⟩ ![0, 1])
    (hb : (⟨0, ![]⟩ : Shape).BroadcastsInDim ⟨2, ![M, N]⟩ ![])
    (R : FVec Ideal ⟨2, ![M, N]⟩ .f32) (X : FVec Ideal ⟨2, ![M, K]⟩ .f32) (W : FVec Ideal ⟨2, ![K, N]⟩ .f32) (b : FVec Ideal ⟨1, ![N]⟩ .f32) :
    addf R (addf (maximumf (addf (Host.dotGeneral d none X W) (broadcastInDim ⟨2, ![M, N]⟩ ![0, 1] h2 (broadcastInDim ⟨2, ![1, N]⟩ ![1] h1 b)))
          (broadcastInDim ⟨2, ![M, N]⟩ ![] hb (constant (F := Ideal) ⟨0, ![]⟩ .f32 0x00000000#32)))
        (mulf (broadcastInDim ⟨2, ![M, N]⟩ ![] hb (constant (F := Ideal) ⟨0, ![]⟩ .f32 0x3F800000#32))
          (Host.expm1 (Host.divf
            (minimumf (addf (Host.dotGeneral d none X W) (broadcastInDim ⟨2, ![M, N]⟩ ![0, 1] h2 (broadcastInDim ⟨2, ![1, N]⟩ ![1] h1 b)))
              (broadcastInDim ⟨2, ![M, N]⟩ ![] hb (constant (F := Ideal) ⟨0, ![]⟩ .f32 0x00000000#32)))
            (broadcastInDim ⟨2, ![M, N]⟩ ![] hb (constant (F := Ideal) ⟨0, ![]⟩ .f32 0x3F800000#32))))))
      = reduce M K N R X W b :=
  congrArg (addf R) (expand_host M K N d hd h1 h2 hb X W b)

end Cert.Spec

end
-- ==== Proof.AggR.lean ====
/-
  The aggregation of edge messages as `ReferenceIdeal`'s host operations spell it: the edges' node numbers normalised (a negative one
  moved up by the node count), the expanded coordinates gathered at both ends and the expanded node features at the source,
  `|c_dst - c_src| · (h_src · e)`, scatter-summed onto the destination nodes from zero.
-/
import proofs.«174336_j34986803593905_1_alg».proof.Proof.Gen.ReferenceIdeal
import Idealize.ShloMosaic.PureOps.Ideal

noncomputable section

namespace Cert.ReferenceIdeal.Hand

open Idealize.ShloMosaic Cert.ReferenceIdeal Cert.ReferenceIdeal.Facts₀

/-- An edge end's node numbers as a column of gather positions. -/
def nodeCol (x : IVec S320000 32) : IVec S320000x1 32 :=
  broadcastInDim S320000x1 ![0] bcast_S320000_S320000x1_0
    (select (cmpi .slt x (broadcastInDim S320000 ![] bcast_S_S320000 (constantI S_ 32 0#32)))
      (addi x (broadcastInDim S320000 ![] bcast_S_S320000 (constantI S_ 32 20000#32))) x)

/-- The per-node sums of the edge messages. -/
def agg (cc h : FVec Ideal S20000x512 .f32) (e : FVec Ideal S320000x512 .f32) (src dst : IVec S320000 32) : FVec Ideal S20000x512 .f32 :=
  Host.scatterAdd scatter_S20000x512_S320000x1_S320000x512_1_0_0_1
    (broadcastInDim S20000x512 ![] bcast_S_S20000x512 (constant (F := Ideal) S_ .f32 0x00000000#32))
    (broadcastInDim S320000x1 ![0] bcast_S320000_S320000x1_0 dst)
    (mulf (Host.absf (subf (Host.gather gather_S20000x512_S320000x1_S320000x512_1_0_n_n_0_1_1512 cc (nodeCol dst))
        (Host.gather gather_S20000x512_S320000x1_S320000x512_1_0_n_n_0_1_1512 cc (nodeCol src))))
      (mulf (Host.gather gather_S20000x512_S320000x1_S320000x512_1_0_n_n_0_1_1512 h (nodeCol src)) e))

end Cert.ReferenceIdeal.Hand

end
-- ==== Proof.RefRun.lean ====
/-
  The reference's run with its three results as the functions of Net.lean: its generated run states each result as the
  composed term of its host operations; every `dot_general` + bias + CELU there is `expand` (added onto a residual:
  `reduce`), and what is left between them is the aggregation of the edge messages.
-/
import proofs.«174336_j34986803593905_1_alg».proof.Proof.Gen.ReferenceIdeal.Run
import proofs.«174336_j34986803593905_1_alg».proof.Proof.HostOps
import proofs.«174336_j34986803593905_1_alg».proof.Proof.AggR

set_option maxRecDepth 16384

noncomputable section

namespace Cert.ReferenceIdeal.Hand

open Idealize.ShloMosaic Idealize.ShloMosaic.TcCoe Idealize.SL.Sem
open Cert.ReferenceIdeal Cert.ReferenceIdeal.Facts₀ Cert.Spec

variable (m : (ℓ : Loc nD τ sig) → Buf (Elt Ideal) ℓ) (ρ : Dev nD → PrngReg)

/-- The reference's run: the node, coordinate and edge outputs at `netH`, `netC`, `netE` of the arguments, the arguments
    unchanged. -/
theorem run_net : θ_run defs (onTc (τ := τ) (main (F := Ideal))) ⟨m, fun _ => 0, ρ⟩ (fun r => ∀ c : Dev nD,
      r.2.mem ((c.tc : Thread nD τ).loc main_v53) = netH agg (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v65) = netC (m ((c.tc : Thread nD τ).loc main_arg1)) (m ((c.tc : Thread nD τ).loc main_arg9)) (m ((c.tc : Thread nD τ).loc main_arg10)) (m ((c.tc : Thread nD τ).loc main_arg17)) (m ((c.tc : Thread nD τ).loc main_arg18))
      ∧ r.2.mem ((c.tc : Thread nD τ).loc main_v59) = netE (m ((c.tc : Thread nD τ).loc main_arg2)) (m ((c.tc : Thread nD τ).loc main_arg7)) (m ((c.tc : Thread nD τ).loc main_arg8)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) := by
  refine (θ_run defs _ _).mono (fun r h c => ?_) (Cert.ReferenceIdeal.Value.run (F := Ideal) m ρ)
  obtain ⟨h0, h1, h2, hargs⟩ := h c
  refine ⟨h0.trans ?_, h1.trans ?_, h2.trans ?_, hargs⟩
  · unfold Cert.ReferenceIdeal.Value.res_main_v53
    refine (reduce_host 20000 512 128 _ rfl _ _ _ _ _ _ _).trans (congrArg (fun x => reduce 20000 512 128 _ x _ _)
      ((expand_host 20000 512 512 _ rfl _ _ _ _ _ _).trans (congrArg (fun k => expand 20000 512 512 k _ _) ?_)))
    show agg _ _ _ _ _ = agg (expand 20000 3 512 _ _ _) (expand 20000 128 512 _ _ _) (expand 320000 32 512 _ _ _) _ _
    rw [expand_host 20000 3 512 dot_S20000x3_S3x512_S20000x512_1_0_0_1_n_n rfl,
      expand_host 20000 128 512 dot_S20000x128_S128x512_S20000x512_1_0_0_1_n_n rfl,
      expand_host 320000 32 512 dot_S320000x32_S32x512_S320000x512_1_0_0_1_n_n rfl]
  · exact (reduce_host 20000 512 3 _ rfl _ _ _ _ _ _ _).trans (congrArg (fun x => reduce 20000 512 3 _ x _ _)
      (expand_host 20000 3 512 _ rfl _ _ _ _ _ _))
  · exact (reduce_host 320000 512 32 _ rfl _ _ _ _ _ _ _).trans (congrArg (fun x => reduce 320000 512 32 _ x _ _)
      (expand_host 320000 32 512 _ rfl _ _ _ _ _ _))

end Cert.ReferenceIdeal.Hand

end
-- ==== Proof.AggEq.lean ====
/-
  The two programs spell the aggregation of edge messages with the same host operations over the same dimension numbers:
  one function.
-/
import proofs.«174336_j34986803593905_1_alg».proof.Proof.AggK
import proofs.«174336_j34986803593905_1_alg».proof.Proof.AggR

noncomputable section

namespace Cert.Spec

theorem agg_eq : Cert.ReferenceIdeal.Hand.agg = Cert.KernelIdeal.Hand.agg := rfl

end Cert.Spec

end
-- ==== Proof.lean ====
/-
  The certificate of a graph message-passing layer: three dense layers with CELU expand the node, edge and coordinate
  features (Pallas launches, bf16 operands, f32 accumulation); the edge messages `|c_dst - c_src| · (h_src · e)` are gathered and
  scatter-summed onto the destination nodes by host operations; three more launches reduce the sums (through two dense layers),
  the edge expansion and the coordinate expansion back onto the inputs as residuals.

  At the ideal values a change of float format is the identity and a kernel's matrix product into a zero accumulator is the
  host's `dot_general`, so each launch computes the reference's dense layer block of rows by block of rows; the kernel's CELU,
  `x` where `x > 0` and `eˣ - 1` elsewhere, and the reference's, `max x 0 + 1 · expm1 (min x 0 / 1)`, are one function of every
  extended real (Spec.lean `celu_max_min`); the gather, the product and the scatter-sum are the same host operations in both
  programs. So both runs end with the three results at `netH`, `netC`, `netE` (Net.lean) of arguments that agree.

  The frames of the two kernel programs are the generated ones; the reference's frame is its generated run with the results
  dropped; the ideal pass rewrote nothing, so `preserves` is trivial.
-/
import proofs.«174336_j34986803593905_1_alg».proof.Defs
import proofs.«174336_j34986803593905_1_alg».proof.Proof.Gen.Kernel
import proofs.«174336_j34986803593905_1_alg».proof.Proof.Gen.Kernel.Frame
import proofs.«174336_j34986803593905_1_alg».proof.Proof.Gen.KernelIdeal
import proofs.«174336_j34986803593905_1_alg».proof.Proof.Gen.KernelIdeal.Frame
import proofs.«174336_j34986803593905_1_alg».proof.Proof.Gen.ReferenceIdeal
import proofs.«174336_j34986803593905_1_alg».proof.Proof.Gen.ReferenceIdeal.Run
import proofs.«174336_j34986803593905_1_alg».proof.Proof.Gen.Pre_finite_inputs
import proofs.«174336_j34986803593905_1_alg».proof.Proof.KernelRun
import proofs.«174336_j34986803593905_1_alg».proof.Proof.Values
import proofs.«174336_j34986803593905_1_alg».proof.Proof.RefRun
import proofs.«174336_j34986803593905_1_alg».proof.Proof.AggEq
import Idealize.ShloMosaic.Adequacy
import Idealize.ShloMosaic.Init

set_option maxRecDepth 16384

noncomputable section

namespace Cert.Proof

open Idealize.ShloMosaic Idealize.ShloMosaic.TcCoe Idealize.SL.Sem Cert.Spec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with the node, coordinate and edge outputs at `netH`, `netC`, `netE` of the arguments: the
    kernel's by its launches' values carried through @main's boundaries, the reference's by its host operations read as
    dense layers; the arguments agree, and the two aggregations are one function. -/
theorem algebraic : Cert.algebraic_KernelIdeal_ReferenceIdeal := by
  intro m ρ m' ρ' _ hagree
  refine ⟨fun c => netH Cert.KernelIdeal.Hand.agg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => netC (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => netE (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c =>
      ⟨(h c).1.trans (Cert.KernelIdeal.Hand.houtVal m ρ c), (h c).2.1.trans (Cert.KernelIdeal.Hand.coutVal m ρ c),
        (h c).2.2.1.trans (Cert.KernelIdeal.Hand.eoutVal m ρ c), (h c).2.2.2⟩)
      (Cert.KernelIdeal.Hand.run_results (F := Ideal) m ρ)
  · refine (θ_run Cert.ReferenceIdeal.defs _ _).mono (fun r h c => ?_) (Cert.ReferenceIdeal.Hand.run_net m' ρ')
    obtain ⟨a0, a1, a2, a3, a4, a5, a6, a7, a8, a9, a10, a11, a12, a13, a14, a15, a16, a17, a18⟩ := hagree c
    beta_reduce
    rw [← a0, ← a1, ← a2, ← a3, ← a4, ← a5, ← a6, ← a7, ← a8, ← a9, ← a10, ← a11, ← a12, ← a13, ← a14, ← a15, ← a16, ← a17, ← a18,
      ← Cert.Spec.agg_eq]
    exact h c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
